-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1024x768 : Shape := ⟨2, ![1024, 768]⟩
abbrev S1024 : Shape := ⟨1, ![1024]⟩
abbrev S1024x1 : Shape := ⟨2, ![1024, 1]⟩
abbrev S768x1024 : Shape := ⟨2, ![768, 1024]⟩
abbrev S1024x1024 : Shape := ⟨2, ![1024, 1024]⟩

abbrev nBuf : Space → Nat
  | .hbm => 29
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x768, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x768, .f32⟩
  | .hbm, ⟨19, _⟩ => ⟨S8192x768, .f32⟩
  | .hbm, ⟨20, _⟩ => ⟨S8192x768, .bf16⟩
  | .hbm, ⟨21, _⟩ => ⟨S8192x768, .f32⟩
  | .hbm, ⟨22, _⟩ => ⟨S8192x768, .f32⟩
  | .hbm, ⟨23, _⟩ => ⟨S8192x768, .bf16⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024, .f32⟩
  | .local _ .vmem, ⟨5, _⟩ => ⟨S1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  transposes_S1024x768_p1_0_S768x1024 : S1024x768.Transposes [1, 0] S768x1024
  reduces_S1024x1024_S1024 : S1024x1024.Reduces [1] S1024
  shapeCasts_S1024_S1024x1 : S1024.ShapeCasts S1024x1
  broadcasts_S1024x1_S1024x1024 : S1024x1.Broadcasts S1024x1024
  iota_S1024x1024_d0_w32 : S1024x1024.Iotas .tc 32 [0]
  iota_S1024x1024_d1_w32 : S1024x1024.Iotas .tc 32 [1]
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_v8) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S768x8192 : Shape := ⟨2, ![768, 8192]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x768, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S8192x768, .f32⟩
  | .hbm, ⟨22, _⟩ => ⟨S768x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192, .i32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S_, .i32⟩
  | .hbm, ⟨48, _⟩ => ⟨S8192x1, .i32⟩
  | .hbm, ⟨49, _⟩ => ⟨S8192x1, .i32⟩
  | .hbm, ⟨50, _⟩ => ⟨S8192x1, .i32⟩
  | .hbm, ⟨51, _⟩ => ⟨S8192x1x1, .i32⟩
  | .hbm, ⟨52, _⟩ => ⟨S1, .i32⟩
  | .hbm, ⟨53, _⟩ => ⟨S_, .i32⟩
  | .hbm, ⟨54, _⟩ => ⟨S8192x1x1, .i32⟩
  | .hbm, ⟨55, _⟩ => ⟨S8192x1x1, .i1⟩
  | .hbm, ⟨56, _⟩ => ⟨S1x1x1, .i32⟩
  | .hbm, ⟨57, _⟩ => ⟨S8192x1x1, .i32⟩
  | .hbm, ⟨58, _⟩ => ⟨S8192x1x1, .i1⟩
  | .hbm, ⟨59, _⟩ => ⟨S8192x1x1, .i1⟩
  | .hbm, ⟨60, _⟩ => ⟨S_, .i1⟩
  | .hbm, ⟨61, _⟩ => ⟨S8192x1, .i1⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_cst : Ref sig .tc := ⟨.hbm, 28, rfl⟩
abbrev main_call2_v0 : Ref sig .tc := ⟨.hbm, 29, rfl⟩
abbrev main_call2_cst_0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_cst_1 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_v15 : Ref sig .tc := ⟨.hbm, 42, rfl⟩
abbrev main_v16 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_cst : Ref sig .tc := ⟨.hbm, 63, rfl⟩
abbrev main_call3_v14 : Ref sig .tc := ⟨.hbm, 64, rfl⟩
abbrev main_v17 : Ref sig .tc := ⟨.hbm, 65, rfl⟩
abbrev main_cst_2 : Ref sig .tc := ⟨.hbm, 66, rfl⟩
abbrev main_v18 : Ref sig .tc := ⟨.hbm, 67, rfl⟩
abbrev main_cst_3 : Ref sig .tc := ⟨.hbm, 68, rfl⟩
abbrev main_v19 : Ref sig .tc := ⟨.hbm, 69, rfl⟩
abbrev main_v20 : Ref sig .tc := ⟨.hbm, 70, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  transposes_S8192x768_S768x8192_1_0 : S8192x768.Transposes [1, 0] S768x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x768_S768x8192_S8192x8192_1_0_0_1_n_n_wf : DotDims.WF S8192x768 S768x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.Pieces.lean ====
/-
  What each control case of the kernel body leaves in the three carried scratch arrays (the running maximum, the
  running sum of exponentials, the diagonal logit) and, at the last column block, in the output block: each is the
  body's arithmetic applied to the two input blocks and to what the scratch held before the point.  At the first
  column block the scratch is first reset to −∞, 0, 0, so the old contents do not matter there.
-/
import proofs.«100311_j16423954940464_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The offsets of a whole rank-2 block are all zero. -/
theorem hz2 : (![0, 0] : Fin 2 → Nat) = fun _ => 0 := funext fun a => by fin_cases a <;> rfl

/-- The offset of a whole rank-1 block is zero. -/
theorem hz1 : (![0] : Fin 1 → Nat) = fun _ => 0 := funext fun a => by fin_cases a <;> rfl

/-- What case A leaves there, as the body's arithmetic of the blocks and of what the scratch held. -/
theorem sout0_A_0_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i)
    (x0 : Vec F S1024x768 .bf16) (x1 : Vec F S1024x768 .bf16) :
    sout0_A_0 c i arg2 harg2 arg3 harg3 arg4 harg4 arg5 harg5 arg6 harg6 arg7 harg7 hc0 hc1 hc2 x0 x1 = k0_pay8 x0 x1 (k0_pay2 (F := F)) := by
  unfold sout0_A_0
  rw [View.read_writes_eq_canon _ _ _ (scover0_A_0 c i arg2 harg2 arg3 harg3 arg4 harg4 arg5 harg5 arg6 harg6 arg7 harg7 hc0 hc1 hc2 x0 x1)]
  unfold kernelRun0_A
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case A leaves there, as the body's arithmetic of the blocks and of what the scratch held. -/
theorem sout0_A_1_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i)
    (x0 : Vec F S1024x768 .bf16) (x1 : Vec F S1024x768 .bf16) :
    sout0_A_1 c i arg2 harg2 arg3 harg3 arg4 harg4 arg5 harg5 arg6 harg6 arg7 harg7 hc0 hc1 hc2 x0 x1 = k0_pay7 x0 x1 (k0_pay2 (F := F)) (k0_pay3 (F := F)) := by
  unfold sout0_A_1
  rw [View.read_writes_eq_canon _ _ _ (scover0_A_1 c i arg2 harg2 arg3 harg3 arg4 harg4 arg5 harg5 arg6 harg6 arg7 harg7 hc0 hc1 hc2 x0 x1)]
  unfold kernelRun0_A
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case A leaves there, as the body's arithmetic of the blocks and of what the scratch held. -/
theorem sout0_A_2_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i)
    (x0 : Vec F S1024x768 .bf16) (x1 : Vec F S1024x768 .bf16) :
    sout0_A_2 c i arg2 harg2 arg3 harg3 arg4 harg4 arg5 harg5 arg6 harg6 arg7 harg7 hc0 hc1 hc2 x0 x1 = k0_pay9 x0 x1 := by
  unfold sout0_A_2
  rw [View.read_writes_eq_canon _ _ _ (scover0_A_2 c i arg2 harg2 arg3 harg3 arg4 harg4 arg5 harg5 arg6 harg6 arg7 harg7 hc0 hc1 hc2 x0 x1)]
  unfold kernelRun0_A
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case B leaves there, as the body's arithmetic of the blocks and of what the scratch held. -/
theorem sout0_B_0_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : ¬cond0_2 i)
    (x0 : Vec F S1024x768 .bf16) (x1 : Vec F S1024x768 .bf16) (xs0 : Vec F S1024x1 .f32) (xs1 : Vec F S1024x1 .f32) (xs2 : Vec F S1024x1 .f32) :
    sout0_B_0 c i arg2 harg2 arg3 harg3 arg4 harg4 arg5 harg5 arg6 harg6 arg7 harg7 hc0 hc1 hc2 x0 x1 xs0 xs1 xs2 = k0_pay8 x0 x1 xs0 := by
  unfold sout0_B_0
  rw [View.read_writes_eq_canon _ _ _ (scover0_B_0 c i arg2 harg2 arg3 harg3 arg4 harg4 arg5 harg5 arg6 harg6 arg7 harg7 hc0 hc1 hc2 x0 x1 xs0 xs1 xs2)]
  unfold kernelRun0_B
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case B leaves there, as the body's arithmetic of the blocks and of what the scratch held. -/
theorem sout0_B_1_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : ¬cond0_2 i)
    (x0 : Vec F S1024x768 .bf16) (x1 : Vec F S1024x768 .bf16) (xs0 : Vec F S1024x1 .f32) (xs1 : Vec F S1024x1 .f32) (xs2 : Vec F S1024x1 .f32) :
    sout0_B_1 c i arg2 harg2 arg3 harg3 arg4 harg4 arg5 harg5 arg6 harg6 arg7 harg7 hc0 hc1 hc2 x0 x1 xs0 xs1 xs2 = k0_pay7 x0 x1 xs0 xs1 := by
  unfold sout0_B_1
  rw [View.read_writes_eq_canon _ _ _ (scover0_B_1 c i arg2 harg2 arg3 harg3 arg4 harg4 arg5 harg5 arg6 harg6 arg7 harg7 hc0 hc1 hc2 x0 x1 xs0 xs1 xs2)]
  unfold kernelRun0_B
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case C leaves there, as the body's arithmetic of the blocks and of what the scratch held. -/
theorem out0_C_2_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x768 .bf16) (x1 : Vec F S1024x768 .bf16) (xs0 : Vec F S1024x1 .f32) (xs1 : Vec F S1024x1 .f32) (xs2 : Vec F S1024x1 .f32) :
    out0_C_2 c i arg2 harg2 arg3 harg3 arg4 harg4 arg5 harg5 arg6 harg6 arg7 harg7 hc0 hc1 hc2 x0 x1 xs0 xs1 xs2 = k0_pay1 xs2 (k0_pay8 x0 x1 xs0) (k0_pay7 x0 x1 xs0 xs1) := by
  unfold out0_C_2
  rw [View.read_writes_eq_canon _ _ _ (cover0_C_2 c i arg2 harg2 arg3 harg3 arg4 harg4 arg5 harg5 arg6 harg6 arg7 harg7 hc0 hc1 hc2 x0 x1 xs0 xs1 xs2)]
  unfold kernelRun0_C
  dsimp only
  sl_unfold_words
  rw [View.canon_cons_unit_zero (S := S1024) hz1]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case C leaves there, as the body's arithmetic of the blocks and of what the scratch held. -/
theorem sout0_C_0_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x768 .bf16) (x1 : Vec F S1024x768 .bf16) (xs0 : Vec F S1024x1 .f32) (xs1 : Vec F S1024x1 .f32) (xs2 : Vec F S1024x1 .f32) :
    sout0_C_0 c i arg2 harg2 arg3 harg3 arg4 harg4 arg5 harg5 arg6 harg6 arg7 harg7 hc0 hc1 hc2 x0 x1 xs0 xs1 xs2 = k0_pay8 x0 x1 xs0 := by
  unfold sout0_C_0
  rw [View.read_writes_eq_canon _ _ _ (scover0_C_0 c i arg2 harg2 arg3 harg3 arg4 harg4 arg5 harg5 arg6 harg6 arg7 harg7 hc0 hc1 hc2 x0 x1 xs0 xs1 xs2)]
  unfold kernelRun0_C
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case C leaves there, as the body's arithmetic of the blocks and of what the scratch held. -/
theorem sout0_C_1_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i)
    (x0 : Vec F S1024x768 .bf16) (x1 : Vec F S1024x768 .bf16) (xs0 : Vec F S1024x1 .f32) (xs1 : Vec F S1024x1 .f32) (xs2 : Vec F S1024x1 .f32) :
    sout0_C_1 c i arg2 harg2 arg3 harg3 arg4 harg4 arg5 harg5 arg6 harg6 arg7 harg7 hc0 hc1 hc2 x0 x1 xs0 xs1 xs2 = k0_pay7 x0 x1 xs0 xs1 := by
  unfold sout0_C_1
  rw [View.read_writes_eq_canon _ _ _ (scover0_C_1 c i arg2 harg2 arg3 harg3 arg4 harg4 arg5 harg5 arg6 harg6 arg7 harg7 hc0 hc1 hc2 x0 x1 xs0 xs1 xs2)]
  unfold kernelRun0_C
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case D leaves there, as the body's arithmetic of the blocks and of what the scratch held. -/
theorem sout0_D_0_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i)
    (x0 : Vec F S1024x768 .bf16) (x1 : Vec F S1024x768 .bf16) :
    sout0_D_0 c i arg2 harg2 arg3 harg3 arg4 harg4 arg5 harg5 arg6 harg6 arg7 harg7 hc0 hc1 hc2 x0 x1 = k0_pay8 x0 x1 (k0_pay2 (F := F)) := by
  unfold sout0_D_0
  rw [View.read_writes_eq_canon _ _ _ (scover0_D_0 c i arg2 harg2 arg3 harg3 arg4 harg4 arg5 harg5 arg6 harg6 arg7 harg7 hc0 hc1 hc2 x0 x1)]
  unfold kernelRun0_D
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case D leaves there, as the body's arithmetic of the blocks and of what the scratch held. -/
theorem sout0_D_1_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i)
    (x0 : Vec F S1024x768 .bf16) (x1 : Vec F S1024x768 .bf16) :
    sout0_D_1 c i arg2 harg2 arg3 harg3 arg4 harg4 arg5 harg5 arg6 harg6 arg7 harg7 hc0 hc1 hc2 x0 x1 = k0_pay7 x0 x1 (k0_pay2 (F := F)) (k0_pay3 (F := F)) := by
  unfold sout0_D_1
  rw [View.read_writes_eq_canon _ _ _ (scover0_D_1 c i arg2 harg2 arg3 harg3 arg4 harg4 arg5 harg5 arg6 harg6 arg7 harg7 hc0 hc1 hc2 x0 x1)]
  unfold kernelRun0_D
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case D leaves there, as the body's arithmetic of the blocks and of what the scratch held. -/
theorem sout0_D_2_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i)
    (x0 : Vec F S1024x768 .bf16) (x1 : Vec F S1024x768 .bf16) :
    sout0_D_2 c i arg2 harg2 arg3 harg3 arg4 harg4 arg5 harg5 arg6 harg6 arg7 harg7 hc0 hc1 hc2 x0 x1 = k0_pay4 (F := F) := by
  unfold sout0_D_2
  rw [View.read_writes_eq_canon _ _ _ (scover0_D_2 c i arg2 harg2 arg3 harg3 arg4 harg4 arg5 harg5 arg6 harg6 arg7 harg7 hc0 hc1 hc2 x0 x1)]
  unfold kernelRun0_D
  dsimp only
  sl_unfold_words
  rw [View.canon_cons_unit_zero (S := S1024x1) hz2]

/-- What case E leaves there, as the body's arithmetic of the blocks and of what the scratch held. -/
theorem sout0_E_0_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x768 .bf16) (x1 : Vec F S1024x768 .bf16) (xs0 : Vec F S1024x1 .f32) (xs1 : Vec F S1024x1 .f32) :
    sout0_E_0 c i arg2 harg2 arg3 harg3 arg4 harg4 arg5 harg5 arg6 harg6 arg7 harg7 hc0 hc1 hc2 x0 x1 xs0 xs1 = k0_pay8 x0 x1 xs0 := by
  unfold sout0_E_0
  rw [View.read_writes_eq_canon _ _ _ (scover0_E_0 c i arg2 harg2 arg3 harg3 arg4 harg4 arg5 harg5 arg6 harg6 arg7 harg7 hc0 hc1 hc2 x0 x1 xs0 xs1)]
  unfold kernelRun0_E
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case E leaves there, as the body's arithmetic of the blocks and of what the scratch held. -/
theorem sout0_E_1_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x768 .bf16) (x1 : Vec F S1024x768 .bf16) (xs0 : Vec F S1024x1 .f32) (xs1 : Vec F S1024x1 .f32) :
    sout0_E_1 c i arg2 harg2 arg3 harg3 arg4 harg4 arg5 harg5 arg6 harg6 arg7 harg7 hc0 hc1 hc2 x0 x1 xs0 xs1 = k0_pay7 x0 x1 xs0 xs1 := by
  unfold sout0_E_1
  rw [View.read_writes_eq_canon _ _ _ (scover0_E_1 c i arg2 harg2 arg3 harg3 arg4 harg4 arg5 harg5 arg6 harg6 arg7 harg7 hc0 hc1 hc2 x0 x1 xs0 xs1)]
  unfold kernelRun0_E
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case E leaves there, as the body's arithmetic of the blocks and of what the scratch held. -/
theorem sout0_E_2_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i)
    (x0 : Vec F S1024x768 .bf16) (x1 : Vec F S1024x768 .bf16) (xs0 : Vec F S1024x1 .f32) (xs1 : Vec F S1024x1 .f32) :
    sout0_E_2 c i arg2 harg2 arg3 harg3 arg4 harg4 arg5 harg5 arg6 harg6 arg7 harg7 hc0 hc1 hc2 x0 x1 xs0 xs1 = k0_pay9 x0 x1 := by
  unfold sout0_E_2
  rw [View.read_writes_eq_canon _ _ _ (scover0_E_2 c i arg2 harg2 arg3 harg3 arg4 harg4 arg5 harg5 arg6 harg6 arg7 harg7 hc0 hc1 hc2 x0 x1 xs0 xs1)]
  unfold kernelRun0_E
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case F leaves there, as the body's arithmetic of the blocks and of what the scratch held. -/
theorem out0_F_2_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 : Vec F S1024x768 .bf16) (x1 : Vec F S1024x768 .bf16) (xs0 : Vec F S1024x1 .f32) (xs1 : Vec F S1024x1 .f32) :
    out0_F_2 c i arg2 harg2 arg3 harg3 arg4 harg4 arg5 harg5 arg6 harg6 arg7 harg7 hc0 hc1 hc2 x0 x1 xs0 xs1 = k0_pay1 (k0_pay9 x0 x1) (k0_pay8 x0 x1 xs0) (k0_pay7 x0 x1 xs0 xs1) := by
  unfold out0_F_2
  rw [View.read_writes_eq_canon _ _ _ (cover0_F_2 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024) hz1]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case F leaves there, as the body's arithmetic of the blocks and of what the scratch held. -/
theorem sout0_F_0_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 : Vec F S1024x768 .bf16) (x1 : Vec F S1024x768 .bf16) (xs0 : Vec F S1024x1 .f32) (xs1 : Vec F S1024x1 .f32) :
    sout0_F_0 c i arg2 harg2 arg3 harg3 arg4 harg4 arg5 harg5 arg6 harg6 arg7 harg7 hc0 hc1 hc2 x0 x1 xs0 xs1 = k0_pay8 x0 x1 xs0 := by
  unfold sout0_F_0
  rw [View.read_writes_eq_canon _ _ _ (scover0_F_0 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case F leaves there, as the body's arithmetic of the blocks and of what the scratch held. -/
theorem sout0_F_1_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 : Vec F S1024x768 .bf16) (x1 : Vec F S1024x768 .bf16) (xs0 : Vec F S1024x1 .f32) (xs1 : Vec F S1024x1 .f32) :
    sout0_F_1 c i arg2 harg2 arg3 harg3 arg4 harg4 arg5 harg5 arg6 harg6 arg7 harg7 hc0 hc1 hc2 x0 x1 xs0 xs1 = k0_pay7 x0 x1 xs0 xs1 := by
  unfold sout0_F_1
  rw [View.read_writes_eq_canon _ _ _ (scover0_F_1 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

/-- What case F leaves there, as the body's arithmetic of the blocks and of what the scratch held. -/
theorem sout0_F_2_eq (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : cond0_2 i)
    (x0 : Vec F S1024x768 .bf16) (x1 : Vec F S1024x768 .bf16) (xs0 : Vec F S1024x1 .f32) (xs1 : Vec F S1024x1 .f32) :
    sout0_F_2 c i arg2 harg2 arg3 harg3 arg4 harg4 arg5 harg5 arg6 harg6 arg7 harg7 hc0 hc1 hc2 x0 x1 xs0 xs1 = k0_pay9 x0 x1 := by
  unfold sout0_F_2
  rw [View.read_writes_eq_canon _ _ _ (scover0_F_2 c i arg2 harg2 arg3 harg3 arg4 harg4 arg5 harg5 arg6 harg6 arg7 harg7 hc0 hc1 hc2 x0 x1 xs0 xs1)]
  unfold kernelRun0_F
  dsimp only
  sl_unfold_words
  rw [View.canon_cons_unit_zero (S := S1024x1) hz2]
  simp only [View.readAt_eq_ld, View.readCov_unit_zero (S := S1024x1) _ hz2, harg2.read_unread, harg3.read_unread,
    harg5.read_unread, harg6.read_unread, harg7.read_unread, View.ld_unit_zero (S := S1024x768) hz2,
    View.ld_unit_zero (S := S1024x1) hz2]

end Cert.KernelIdeal.Pieces

end
-- ==== Proof.Spec.lean ====
/-
  The mathematics both programs compute, written once over the two argument arrays read as extended reals.

  Each row of an argument array is divided by its Euclidean norm, floored at the f32 value of 1e-8.  The cosine
  similarity of row R of the first array and row C of the second is the inner product of the two unit rows; the
  logit is that similarity divided by the temperature (the f32 value of 0.07).  The loss of row R is
  -(logit R R - log (∑ C, exp (logit R C))): the cross entropy of the softmax of row R against the label R; the
  result is the mean of the 8192 row losses.
-/
import Idealize.ShloMosaic.PureOps.Ideal.Laws
import Idealize.ShloMosaic.Lib.ValueIdx

noncomputable section

open scoped BigOperators

namespace Cert.Spec

open Idealize.ShloMosaic Idealize.ShloMosaic.ValueIdx

/-- An argument array: 8192 rows of 768 features. -/
abbrev Feat : Shape := ⟨2, ![8192, 768]⟩

/-- The constants of the two programs, as the extended reals their f32 words denote: −∞, 0, the norm floor (1e-8),
    the temperature (0.07) and the number of rows (8192). -/
abbrev negInf : EReal := Ideal.ofBits .f32 0xFF800000#32
abbrev zero : EReal := Ideal.ofBits .f32 0x00000000#32
abbrev eps : EReal := Ideal.ofBits .f32 0x322BCC77#32
abbrev temp : EReal := Ideal.ofBits .f32 0x3D8F5C29#32
abbrev count : EReal := Ideal.ofBits .f32 0x46000000#32

/-- The reciprocal of the temperature's f32 value: 2^27 / 9395241, exactly. -/
abbrev invTemp : ℝ := 134217728 / 9395241

/-- The sum of the squares of row R. -/
def sumSq (a : Feat.Idx → EReal) (R : Fin 8192) : EReal := zero + ∑ k : Fin 768, a (ix2 R k) * a (ix2 R k)

/-- The norm of row R, floored. -/
def norm (a : Feat.Idx → EReal) (R : Fin 8192) : EReal := max (Ideal.sqrt (sumSq a R)) eps

/-- Entry k of the unit vector along row R. -/
def unit (a : Feat.Idx → EReal) (R : Fin 8192) (k : Fin 768) : EReal := Ideal.div (a (ix2 R k)) (norm a R)

/-- The cosine similarity of row R of a and row C of b. -/
def cosSim (a b : Feat.Idx → EReal) (R C : Fin 8192) : EReal := ∑ k : Fin 768, unit a R k * unit b C k

/-- The logit: the cosine similarity over the temperature. -/
def logit (a b : Feat.Idx → EReal) (R C : Fin 8192) : EReal := Ideal.div (cosSim a b R C) temp

/-- The largest logit of row R, as a reduction from −∞ joined once more with −∞. -/
def rowMax (a b : Feat.Idx → EReal) (R : Fin 8192) : EReal :=
  max negInf ((Finset.univ : Finset (Fin 8192)).fold max negInf (fun C => logit a b R C))

/-- The log-softmax of row R at its own column R, computed with the row's largest logit as the shift. -/
def logSoftmaxDiag (a b : Feat.Idx → EReal) (R : Fin 8192) : EReal :=
  (logit a b R R - rowMax a b R) - Ideal.log (zero + ∑ C : Fin 8192, Ideal.exp (logit a b R C - rowMax a b R))

/-- The loss as the reference computes it: minus the mean over the rows of the log-softmax at the diagonal. -/
def refLoss (a b : Feat.Idx → EReal) : EReal := -(Ideal.div (zero + ∑ R : Fin 8192, logSoftmaxDiag a b R) count)

/-- A row of real logits seen as a function on the natural numbers (zero past the last column), so that a sum over
    the first n columns is a sum over `Finset.range n`. -/
def rowOf (z : Fin 8192 → Fin 8192 → ℝ) (R : Fin 8192) (C : ℕ) : ℝ := if h : C < 8192 then z R ⟨C, h⟩ else 0

/-- The log of the sum of the exponentials of the first n entries of a sequence. -/
def lse (x : ℕ → ℝ) (n : ℕ) : ℝ := Real.log (∑ C ∈ Finset.range n, Real.exp (x C))

/-- What an online softmax holds for a row after its first n columns: a real shift m (any real will do) and the
    sum of exp (x C - m) over those columns. -/
def RowState (x : ℕ → ℝ) (n : ℕ) (M L : EReal) : Prop :=
  ∃ m : ℝ, M = (m : EReal) ∧ L = ((∑ C ∈ Finset.range n, Real.exp (x C - m) : ℝ) : EReal)

end Cert.Spec

end
-- ==== Proof.Payloads.lean ====
/-
  The kernel body's arithmetic read at one entry, at the ideal values (extended reals).

  With x0 a block of 1024 unit rows of the first array and x1 a block of 1024 unit rows of the second:
  the scaled block product at (r, c) is (∑ k, x0 r k · x1 c k) / temperature; the new running maximum of row r
  is the old one joined with the largest entry of row r of that product; the new running sum is the old one
  rescaled by exp (old maximum − new maximum) plus the sum over the row of exp (entry − new maximum); the diagonal
  term of row r is entry (r, r); and the row loss is 0 − (d − (m + log l)).
-/
import proofs.«100311_j16423954940464_1_alg».proof.Proof.Gen.KernelIdeal.Skeleton
import proofs.«100311_j16423954940464_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Payloads

open Cert.KernelIdeal Cert.KernelIdeal.Gen Cert.Spec
open Idealize.ShloMosaic Idealize.ShloMosaic.ValueIdx

/-! ## A column of a entries: the layout operations read at an index -/

section Column
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Column

/-! ## A reduction along the rows of a matrix -/

/-- The index a reduction along axis 1 inserts coordinate `k` at, from the row `r`: the entry `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The sum along a row. -/
theorem rowSum_apply (src : FVec Ideal S1024x1024 .f32) (h : S1024x1024.Reduces [1] S1024) (hφ : FKind.Formats .f32)
    (hacc : (0x00000000#32 : BitVec (FTy.bits .f32)) = FKind.add.neutral .f32 hφ) (r : Fin 1024) :
    multiReduction (F := Ideal) .add [1] S1024 src 0x00000000#32 h hφ hacc (ix1 r) = ∑ c : Fin 1024, src (ix2 r c) := by
  refine (Ideal.multiReduction_add_single src 0x00000000#32 h hφ hacc (ix1 r)).trans ?_
  exact Finset.sum_congr rfl fun k _ => congrArg src (lift_row h r k)

/-- The largest entry of a row, from −∞. -/
theorem rowMax_apply (src : FVec Ideal S1024x1024 .f32) (h : S1024x1024.Reduces [1] S1024) (hφ : FKind.Formats .f32)
    (hacc : (0xFF800000#32 : BitVec (FTy.bits .f32)) = FKind.maximumf.neutral .f32 hφ) (r : Fin 1024) :
    multiReduction (F := Ideal) .maximumf [1] S1024 src 0xFF800000#32 h hφ hacc (ix1 r)
      = (Finset.univ : Finset (Fin 1024)).fold max negInf (fun c => src (ix2 r c)) := by
  refine (Ideal.multiReduction_maximumf_single src 0xFF800000#32 h hφ hacc (ix1 r)).trans ?_
  have hf : (src ∘ h.lift (ix1 r)) = fun k : Fin 1024 => src (ix2 r k) := funext fun k => congrArg src (lift_row h r k)
  exact congrArg (fun f => Finset.fold max (Ideal.ofBits .f32 0xFF800000#32) f (Finset.univ : Finset (Fin 1024))) hf

/-! ## The block product: a matrix product along the 768 features -/

theorem lhs_dot_0 (i : S1024x1024.Idx) (q : dot_S1024x768_S768x1024_S1024x1024_1_0_0_1_n_n.contr.Idx) :
    (dot_S1024x768_S768x1024_S1024x1024_1_0_0_1_n_n.lhsIdx i q 0).val = (i 0).val := by
  unfold DotDims.lhsIdx
  rw [dif_neg (show ¬(0 : Fin S1024x768.rank) ∈ dot_S1024x768_S768x1024_S1024x1024_1_0_0_1_n_n.lhsBatch by decide), dif_pos (show (0 : Fin S1024x768.rank) ∈ dot_S1024x768_S768x1024_S1024x1024_1_0_0_1_n_n.lhsNonContracting by decide)]
  rfl
theorem lhs_dot_1 (i : S1024x1024.Idx) (q : dot_S1024x768_S768x1024_S1024x1024_1_0_0_1_n_n.contr.Idx) :
    (dot_S1024x768_S768x1024_S1024x1024_1_0_0_1_n_n.lhsIdx i q 1).val = (q ⟨0, by decide⟩).val :=
  dot_S1024x768_S768x1024_S1024x1024_1_0_0_1_n_n.lhsIdx_val_of_single rfl i q
theorem rhs_dot_0 (i : S1024x1024.Idx) (q : dot_S1024x768_S768x1024_S1024x1024_1_0_0_1_n_n.contr.Idx) :
    (dot_S1024x768_S768x1024_S1024x1024_1_0_0_1_n_n.rhsIdx i q 0).val = (q ⟨0, by decide⟩).val :=
  dot_S1024x768_S768x1024_S1024x1024_1_0_0_1_n_n.rhsIdx_val_of_single rfl i q
theorem rhs_dot_1 (i : S1024x1024.Idx) (q : dot_S1024x768_S768x1024_S1024x1024_1_0_0_1_n_n.contr.Idx) :
    (dot_S1024x768_S768x1024_S1024x1024_1_0_0_1_n_n.rhsIdx i q 1).val = (i 1).val := by
  unfold DotDims.rhsIdx
  rw [dif_neg (show ¬(1 : Fin S768x1024.rank) ∈ dot_S1024x768_S768x1024_S1024x1024_1_0_0_1_n_n.rhsBatch by decide), dif_pos (show (1 : Fin S768x1024.rank) ∈ dot_S1024x768_S768x1024_S1024x1024_1_0_0_1_n_n.rhsNonContracting by decide)]
  rfl

/-- The product of a 1024 × 768 block and a 768 × 1024 block into the zero block, at (r, c): the sum over the 768
    features of the products of the entries (r, k) and (k, c). -/
theorem dot_apply (y0 : FVec Ideal S1024x768 .bf16) (y1 : FVec Ideal S768x1024 .bf16) (r c : Fin 1024) :
    matmul (F := Ideal) dot_S1024x768_S768x1024_S1024x1024_1_0_0_1_n_n none y0 y1 (constant (F := Ideal) S1024x1024 .f32 0x00000000#32) (ix2 r c)
      = ∑ k : Fin 768, y0 (ix2 r k) * y1 (ix2 k c) := by
  refine (Ideal.matmul_constant_zero_apply dot_S1024x768_S768x1024_S1024x1024_1_0_0_1_n_n none y0 y1 (ix2 r c)).trans ?_
  rw [← Equiv.sum_comp (ValueIdx.contrEquiv1 dot_S1024x768_S768x1024_S1024x1024_1_0_0_1_n_n 768 rfl rfl).symm]
  refine Finset.sum_congr rfl fun k _ => ?_
  have hk := ValueIdx.contrEquiv1_symm_val dot_S1024x768_S768x1024_S1024x1024_1_0_0_1_n_n 768 rfl rfl k
  have el : dot_S1024x768_S768x1024_S1024x1024_1_0_0_1_n_n.lhsIdx (ix2 r c) ((ValueIdx.contrEquiv1 dot_S1024x768_S768x1024_S1024x1024_1_0_0_1_n_n 768 rfl rfl).symm k) = ix2 r k := funext fun a => Fin.ext (by
    match a with
    | ⟨0, _⟩ => exact lhs_dot_0 _ _
    | ⟨1, _⟩ => exact (lhs_dot_1 _ _).trans hk)
  have er : dot_S1024x768_S768x1024_S1024x1024_1_0_0_1_n_n.rhsIdx (ix2 r c) ((ValueIdx.contrEquiv1 dot_S1024x768_S768x1024_S1024x1024_1_0_0_1_n_n 768 rfl rfl).symm k) = ix2 k c := funext fun a => Fin.ext (by
    match a with
    | ⟨0, _⟩ => exact (rhs_dot_0 _ _).trans hk
    | ⟨1, _⟩ => exact rhs_dot_1 _ _)
  rw [el, er]

/-- The same with the second block given by its rows and transposed: the inner product of row r of the first block and
    row c of the second. -/
theorem blockProduct_apply (x0 x1 : FVec Ideal S1024x768 .bf16) (h0 h1 : S1024x768.ShapeCasts S1024x768)
    (ht : S1024x768.Transposes [1, 0] S768x1024) (r c : Fin 1024) :
    matmul (F := Ideal) dot_S1024x768_S768x1024_S1024x1024_1_0_0_1_n_n none (shapeCast S1024x768 x0 h0) (transpose S768x1024 [1, 0] (shapeCast S1024x768 x1 h1) ht)
      (constant (F := Ideal) S1024x1024 .f32 0x00000000#32) (ix2 r c)
      = ∑ k : Fin 768, x0 (ix2 r k) * x1 (ix2 c k) := by
  rw [shapeCast_self, shapeCast_self]
  refine (dot_apply x0 _ r c).trans ?_
  exact Finset.sum_congr rfl fun k _ => congrArg (x0 (ix2 r k) * ·) (transpose_ix2_apply x1 ht k c)

/-- The named scale is the reciprocal of the temperature's f32 value. -/
theorem inv_temp_eq : Named.named (F := Ideal) Cert.KernelIdeal.κ "inv_temp" (φ := .f32) 0x41649249#32 = ((invTemp : ℝ) : EReal) :=
  IdealRules.named_const.ideal_named_scalar _ _ _ _ rfl

/-! ## The diagonal mask -/

/-- Two numbers below 1024, written as 32-bit words, are the same word exactly when they are equal: a select on the
    comparison of the row's and the column's words is the `if` on "the column is the row". -/
theorem select_diag {α : Type} (r c : Fin 1024) (A B : α) :
    Scalar.select (IntOp.cmpi .eq (BitVec.ofNat 32 r.val) (BitVec.ofNat 32 c.val)) A B = if c = r then A else B := by
  by_cases h : c = r
  · subst h
    rw [if_pos rfl]
    have e : IntOp.cmpi .eq (BitVec.ofNat 32 c.val) (BitVec.ofNat 32 c.val) = 1#1 := by
      show BitVec.ofBool (BitVec.ofNat 32 c.val == BitVec.ofNat 32 c.val) = 1#1
      rw [beq_self_eq_true]; rfl
    rw [e]; exact select_one A B
  · rw [if_neg h]
    have hne : BitVec.ofNat 32 r.val ≠ BitVec.ofNat 32 c.val := fun e => h (Fin.ext (by
      have hr := r.isLt
      have hc := c.isLt
      have := congrArg BitVec.toNat e
      rw [BitVec.toNat_ofNat, BitVec.toNat_ofNat, Nat.mod_eq_of_lt (by omega), Nat.mod_eq_of_lt (by omega)] at this
      exact this.symm))
    have e : IntOp.cmpi .eq (BitVec.ofNat 32 r.val) (BitVec.ofNat 32 c.val) = 0#1 := by
      show BitVec.ofBool (BitVec.ofNat 32 r.val == BitVec.ofNat 32 c.val) = 0#1
      rw [beq_false_of_ne hne]; rfl
    rw [e]; exact select_zero A B

/-- A block masked to its diagonal, at (r, c): the entry where the column is the row, zero elsewhere. -/
theorem diagMask_apply (y : FVec Ideal S1024x1024 .f32) (h0 : S1024x1024.Iotas .tc 32 [0]) (h1 : S1024x1024.Iotas .tc 32 [1])
    (r c : Fin 1024) :
    select (cmpi .eq (iota .tc S1024x1024 32 [0] h0) (iota .tc S1024x1024 32 [1] h1)) y
      (broadcast S1024x1024 (Scalar.ofBits (F := Ideal) .f32 0x00000000#32)) (ix2 r c)
      = if c = r then y (ix2 r c) else 0 := by
  show Scalar.select (IntOp.cmpi .eq (iota .tc S1024x1024 32 [0] h0 (ix2 r c)) (iota .tc S1024x1024 32 [1] h1 (ix2 r c)))
    (y (ix2 r c)) (Ideal.ofBits .f32 0x00000000#32) = _
  rw [iota_single_apply, iota_single_apply, Ideal.ofBits_zero_f32]
  exact select_diag r c _ _

/-! ## The payloads -/

/-- The reset values of the three scratch arrays: −∞, 0, 0. -/
theorem pay2_apply (i : S1024x1.Idx) : k0_pay2 (F := Ideal) i = negInf := by
  unfold k0_pay2
  exact congrFun (shapeCast_self _ _) i
theorem pay3_apply (i : S1024x1.Idx) : k0_pay3 (F := Ideal) i = zero := by
  unfold k0_pay3
  exact congrFun (shapeCast_self _ _) i
theorem pay4_apply (i : S1024x1.Idx) : k0_pay4 (F := Ideal) i = zero := by
  unfold k0_pay4
  exact congrFun (shapeCast_self _ _) i

/-- Entry (r, c) of the scaled block product. -/
theorem pay5_apply (x0 x1 : Vec Ideal S1024x768 .bf16) (r c : Fin 1024) :
    k0_pay5 (F := Ideal) x0 x1 (ix2 r c) = (∑ k : Fin 768, x0 (ix2 r k) * x1 (ix2 c k)) * ((invTemp : ℝ) : EReal) := by
  unfold k0_pay5
  exact congrArg₂ (· * ·) (blockProduct_apply x0 x1 _ _ _ r c) inv_temp_eq

/-- The new running maximum of row r. -/
theorem pay6_apply (x0 x1 : Vec Ideal S1024x768 .bf16) (v11 : Vec Ideal S1024x1 .f32) (r : Fin 1024) (u : Fin 1) :
    k0_pay6 (F := Ideal) x0 x1 v11 (ix2 r u)
      = max (v11 (ix2 r u)) ((Finset.univ : Finset (Fin 1024)).fold max negInf (fun c => k0_pay5 (F := Ideal) x0 x1 (ix2 r c))) := by
  unfold k0_pay6
  generalize k0_pay5 (F := Ideal) x0 x1 = y5
  exact congrArg (max (v11 (ix2 r u))) ((shapeCast_a_a1_apply _ _ r u).trans (rowMax_apply y5 _ _ _ r))

/-- The same value, as it is stored. -/
theorem pay8_apply (x0 x1 : Vec Ideal S1024x768 .bf16) (v11 : Vec Ideal S1024x1 .f32) (i : S1024x1.Idx) :
    k0_pay8 (F := Ideal) x0 x1 v11 i = k0_pay6 (F := Ideal) x0 x1 v11 i := by
  unfold k0_pay8
  exact congrFun (shapeCast_self _ _) i

/-- The new running sum of row r. -/
theorem pay7_apply (x0 x1 : Vec Ideal S1024x768 .bf16) (v11 v20 : Vec Ideal S1024x1 .f32) (r : Fin 1024) (u : Fin 1) :
    k0_pay7 (F := Ideal) x0 x1 v11 v20 (ix2 r u)
      = Ideal.exp (v11 (ix2 r u) - k0_pay6 (F := Ideal) x0 x1 v11 (ix2 r u)) * v20 (ix2 r u)
        + ∑ c : Fin 1024, Ideal.exp (k0_pay5 (F := Ideal) x0 x1 (ix2 r c) - k0_pay6 (F := Ideal) x0 x1 v11 (ix2 r u)) := by
  unfold k0_pay7
  generalize k0_pay6 (F := Ideal) x0 x1 v11 = y6
  generalize k0_pay5 (F := Ideal) x0 x1 = y5
  refine (congrFun (shapeCast_self _ _) (ix2 r u)).trans ?_
  refine congrArg (Ideal.exp (v11 (ix2 r u) - y6 (ix2 r u)) * v20 (ix2 r u) + ·) ?_
  refine (shapeCast_a_a1_apply _ _ r u).trans ?_
  refine (rowSum_apply _ _ _ _ r).trans ?_
  exact Finset.sum_congr rfl fun c _ =>
    congrArg (fun t => Ideal.exp (y5 (ix2 r c) - t)) (broadcastTo_a1_ab_apply y6 _ r c u)

/-- The diagonal term of row r: the masked row sum keeps entry (r, r) only. -/
theorem pay9_apply (x0 x1 : Vec Ideal S1024x768 .bf16) (r : Fin 1024) (u : Fin 1) :
    k0_pay9 (F := Ideal) x0 x1 (ix2 r u) = k0_pay5 (F := Ideal) x0 x1 (ix2 r r) := by
  unfold k0_pay9
  generalize k0_pay5 (F := Ideal) x0 x1 = y5
  refine (congrFun (shapeCast_self _ _) (ix2 r u)).trans ?_
  refine (shapeCast_a_a1_apply _ _ r u).trans ?_
  refine (rowSum_apply _ _ _ _ r).trans ?_
  refine (Finset.sum_congr rfl fun c _ => diagMask_apply y5 _ _ r c).trans ?_
  rw [Finset.sum_ite_eq', if_pos (Finset.mem_univ r)]

/-- The row loss of row r from the diagonal term d, the maximum m and the sum l. -/
theorem pay1_apply (v37 v38 v39 : Vec Ideal S1024x1 .f32) (r : Fin 1024) :
    k0_pay1 (F := Ideal) v37 v38 v39 (ix1 r)
      = zero - (v37 (ix2 r (0 : Fin 1)) - (v38 (ix2 r (0 : Fin 1)) + Ideal.log (v39 (ix2 r (0 : Fin 1))))) := by
  unfold k0_pay1
  exact shapeCast_a1_a_apply _ _ r

end Cert.KernelIdeal.Payloads

end
-- ==== Proof.Online.lean ====
/-
  The online softmax of one row, and the log-sum-exp of a row, on the extended reals over real logits.

  A running pair (M, L) — a shift and the sum of exp (x C - M) over the columns seen — is updated by a block of
  columns S to M' = max M (max of S) and L' = exp (M - M') · L + ∑ exp (S c - M').  Whatever real the shift is,
  M + log L is the log of the sum of the exponentials of the columns seen, so the row loss -(d - (M + log L)) and
  the reference's (d - M₀) - log (∑ exp (x C - M₀)) are the same real number up to sign.
-/
import proofs.«100311_j16423954940464_1_alg».proof.Proof.Spec
import Mathlib.Algebra.BigOperators.Fin
import Mathlib.Data.Finset.Fold
import Mathlib.Analysis.SpecialFunctions.Log.Basic

noncomputable section

open scoped BigOperators

namespace Cert.Spec

open Idealize.ShloMosaic

/-! ### Coercions -/

/-- A finite sum of reals read in the extended reals. -/
theorem coe_sum {ι : Type*} (s : Finset ι) (f : ι → ℝ) : (∑ c ∈ s, ((f c : ℝ) : EReal)) = ((∑ c ∈ s, f c : ℝ) : EReal) := by
  classical
  induction s using Finset.induction_on with
  | empty => simp
  | insert a s ha ih => rw [Finset.sum_insert ha, Finset.sum_insert ha, ih, EReal.coe_add]

namespace Online

/-- The larger of two reals, read in the extended reals. -/
theorem coe_max' (a b : ℝ) : max (a : EReal) (b : EReal) = ((max a b : ℝ) : EReal) :=
  (EReal.coe_strictMono.monotone.map_max).symm

/-! ### The constants -/

/-- The word 0xFF800000 is −∞. -/
theorem negInf_eq : negInf = ⊥ := by
  simp [negInf, Ideal.ofBits, Ideal.ieee]

/-- The word 0x00000000 is 0. -/
theorem zero_eq : zero = 0 := Ideal.ofBits_zero_f32

/-- The word 0x3D8F5C29 has exponent field 123 and significand 2^23 + 1006633 = 9395241: it is 9395241 / 2^27. -/
theorem temp_eq : temp = ((9395241 / 134217728 : ℝ) : EReal) := by
  simp [temp, Ideal.ofBits, Ideal.ieee, -EReal.coe_mul]
  norm_num

/-- The word 0x46000000 has exponent field 140 and significand 2^23: it is 2^13 = 8192. -/
theorem count_eq : count = ((8192 : ℝ) : EReal) := by
  simp [count, Ideal.ofBits, Ideal.ieee, -EReal.coe_mul]
  norm_num

end Online

open Online

/-- The temperature's f32 word denotes 9395241 / 2^27, so dividing by it is multiplying by `invTemp`. -/
theorem div_temp (z : EReal) : Ideal.div z temp = z * ((invTemp : ℝ) : EReal) := by
  rw [temp_eq, Ideal.div_coe (by norm_num)]
  congr 2
  norm_num [invTemp]

namespace Online

/-! ### The largest entry of a block of reals -/

/-- The running maximum from −∞ over a nonempty block of reals is a real. -/
theorem fold_max_real {w : ℕ} (hw : 0 < w) (S : Fin w → EReal) (hS : ∀ c : Fin w, ∃ r : ℝ, S c = (r : EReal)) :
    ∃ f : ℝ, (Finset.univ : Finset (Fin w)).fold max ⊥ S = (f : EReal) := by
  have htop : (Finset.univ : Finset (Fin w)).fold max ⊥ S ≠ ⊤ := by
    refine ne_of_lt ((Finset.fold_max_lt ⊤).2 ⟨bot_lt_top, fun c _ => ?_⟩)
    obtain ⟨r, hr⟩ := hS c
    rw [hr]; exact EReal.coe_lt_top r
  have hbot : (Finset.univ : Finset (Fin w)).fold max ⊥ S ≠ ⊥ := by
    obtain ⟨r, hr⟩ := hS ⟨0, hw⟩
    have hle : (r : EReal) ≤ (Finset.univ : Finset (Fin w)).fold max ⊥ S :=
      (Finset.le_fold_max (r : EReal)).2 (Or.inr ⟨⟨0, hw⟩, Finset.mem_univ _, hr.ge⟩)
    exact ne_of_gt (lt_of_lt_of_le (EReal.bot_lt_coe r) hle)
  exact ⟨_, (EReal.coe_toReal htop hbot).symm⟩

/-! ### The two identities over the reals -/

/-- Rescaling the sum over the columns seen to a new shift and adding a block's terms gives the sum over all the
    columns at the new shift. -/
theorem real_update (x : ℕ → ℝ) (a w : ℕ) (m m' : ℝ) :
    Real.exp (m - m') * ∑ C ∈ Finset.range a, Real.exp (x C - m) + ∑ c : Fin w, Real.exp (x (a + c.val) - m')
      = ∑ C ∈ Finset.range (a + w), Real.exp (x C - m') := by
  rw [Finset.sum_range_add, Finset.mul_sum, Fin.sum_univ_eq_sum_range (fun c => Real.exp (x (a + c) - m')) w]
  congr 1
  refine Finset.sum_congr rfl fun C _ => ?_
  rw [← Real.exp_add]
  congr 1
  ring

/-- Whatever the shift, shift plus log of the shifted sum is the log of the sum of the exponentials. -/
theorem shift_lse (x : ℕ → ℝ) {n : ℕ} (hn : 0 < n) (m : ℝ) :
    m + Real.log (∑ C ∈ Finset.range n, Real.exp (x C - m)) = lse x n := by
  have hpos : 0 < ∑ C ∈ Finset.range n, Real.exp (x C) :=
    Finset.sum_pos (fun _ _ => Real.exp_pos _) ⟨0, Finset.mem_range.2 hn⟩
  have hsum : ∑ C ∈ Finset.range n, Real.exp (x C - m) = (∑ C ∈ Finset.range n, Real.exp (x C)) * Real.exp (-m) := by
    rw [Finset.sum_mul]
    refine Finset.sum_congr rfl fun C _ => ?_
    rw [← Real.exp_add, sub_eq_add_neg]
  rw [hsum, Real.log_mul hpos.ne' (Real.exp_pos _).ne', Real.log_exp, lse]
  ring

/-- The shifted sum over n > 0 columns is positive. -/
theorem shifted_sum_pos (x : ℕ → ℝ) {n : ℕ} (hn : 0 < n) (m : ℝ) : 0 < ∑ C ∈ Finset.range n, Real.exp (x C - m) :=
  Finset.sum_pos (fun _ _ => Real.exp_pos _) ⟨0, Finset.mem_range.2 hn⟩

/-- A block's sum of exponentials at a real shift, read in the extended reals. -/
theorem block_sum {w : ℕ} (y : ℕ → ℝ) (S : Fin w → EReal) (hS : ∀ c : Fin w, S c = ((y c.val : ℝ) : EReal)) (m : ℝ) :
    ∑ c : Fin w, Ideal.exp (S c - (m : EReal)) = ((∑ c : Fin w, Real.exp (y c.val - m) : ℝ) : EReal) := by
  rw [← coe_sum]
  refine Finset.sum_congr rfl fun c _ => ?_
  rw [hS c, ← EReal.coe_sub, Ideal.exp_coe]

end Online

/-! ### The online softmax of a row -/

/-- The first block of w columns, from the state (−∞, 0). -/
theorem rowState_first (x : ℕ → ℝ) {w : ℕ} (hw : 0 < w) (S : Fin w → EReal)
    (hS : ∀ c : Fin w, S c = ((x c.val : ℝ) : EReal)) :
    RowState x w (max negInf ((Finset.univ : Finset (Fin w)).fold max negInf S))
      (Ideal.exp (negInf - max negInf ((Finset.univ : Finset (Fin w)).fold max negInf S)) * zero
        + ∑ c : Fin w, Ideal.exp (S c - max negInf ((Finset.univ : Finset (Fin w)).fold max negInf S))) := by
  obtain ⟨f, hf⟩ := fold_max_real hw S (fun c => ⟨_, hS c⟩)
  rw [negInf_eq, zero_eq, hf, max_eq_right bot_le, mul_zero, zero_add, block_sum x S hS f,
    Fin.sum_univ_eq_sum_range (fun C => Real.exp (x C - f)) w]
  exact ⟨f, rfl, rfl⟩

/-- A further block of w columns starting at column a. -/
theorem rowState_next (x : ℕ → ℝ) {a w : ℕ} (hw : 0 < w) (M L : EReal) (h : RowState x a M L) (S : Fin w → EReal)
    (hS : ∀ c : Fin w, S c = ((x (a + c.val) : ℝ) : EReal)) :
    RowState x (a + w) (max M ((Finset.univ : Finset (Fin w)).fold max negInf S))
      (Ideal.exp (M - max M ((Finset.univ : Finset (Fin w)).fold max negInf S)) * L
        + ∑ c : Fin w, Ideal.exp (S c - max M ((Finset.univ : Finset (Fin w)).fold max negInf S))) := by
  obtain ⟨m, rfl, rfl⟩ := h
  obtain ⟨f, hf⟩ := fold_max_real hw S (fun c => ⟨_, hS c⟩)
  rw [negInf_eq, hf, coe_max', ← EReal.coe_sub, Ideal.exp_coe, ← EReal.coe_mul,
    block_sum (fun c => x (a + c)) S hS (max m f), ← EReal.coe_add, real_update]
  exact ⟨max m f, rfl, rfl⟩

/-- The row loss from a state over n > 0 columns and the diagonal logit d. -/
theorem rowState_loss (x : ℕ → ℝ) {n : ℕ} (hn : 0 < n) (M L : EReal) (h : RowState x n M L) (d : ℝ) :
    zero - ((d : EReal) - (M + Ideal.log L)) = ((-(d - lse x n) : ℝ) : EReal) := by
  obtain ⟨m, rfl, rfl⟩ := h
  rw [zero_eq, Ideal.log_coe, if_neg (not_le.2 (shifted_sum_pos x hn m)), ← EReal.coe_add, ← EReal.coe_sub, zero_sub,
    ← EReal.coe_neg, shift_lse x hn m]

/-- The reference's log-softmax entry of a row of n > 0 real logits at the diagonal logit d. -/
theorem ref_row (x : ℕ → ℝ) {n : ℕ} (hn : 0 < n) (X : Fin n → EReal) (hX : ∀ c : Fin n, X c = ((x c.val : ℝ) : EReal)) (d : ℝ) :
    ((d : EReal) - max negInf ((Finset.univ : Finset (Fin n)).fold max negInf X))
        - Ideal.log (zero + ∑ c : Fin n, Ideal.exp (X c - max negInf ((Finset.univ : Finset (Fin n)).fold max negInf X)))
      = ((d - lse x n : ℝ) : EReal) := by
  obtain ⟨f, hf⟩ := fold_max_real hn X (fun c => ⟨_, hX c⟩)
  rw [negInf_eq, zero_eq, hf, max_eq_right bot_le, zero_add, block_sum x X hX f,
    Fin.sum_univ_eq_sum_range (fun C => Real.exp (x C - f)) n, Ideal.log_coe,
    if_neg (not_le.2 (shifted_sum_pos x hn f)), ← EReal.coe_sub, ← EReal.coe_sub, ← shift_lse x hn f]
  congr 1
  ring

/-- The mean of the negated reals is the negated mean. -/
theorem mean_neg {n : ℕ} (p : Fin n → ℝ) :
    Ideal.div (zero + ∑ R : Fin n, ((-(p R) : ℝ) : EReal)) count = -(Ideal.div (zero + ∑ R : Fin n, ((p R : ℝ) : EReal)) count) := by
  rw [count_eq, zero_eq, Ideal.div_coe (by norm_num), Ideal.div_coe (by norm_num), zero_add, zero_add, coe_sum, coe_sum,
    Finset.sum_neg_distrib, ← EReal.coe_mul, ← EReal.coe_mul, ← EReal.coe_neg, neg_mul]

end Cert.Spec

end
-- ==== Proof.RowSteps.lean ====
/-
  One row of the online softmax, through the kernel body's arithmetic.

  For local row r of a block with real scaled logits x (a + c) in its columns: after the first block the pair
  (running maximum, running sum) is a row state over 1024 columns; a later block extends a row state over a columns
  to one over a + 1024; on the diagonal block the diagonal term is the row's own logit; and from a row state over
  all n columns and the diagonal logit d the row loss is -(d - log ∑ exp x).
-/
import proofs.«100311_j16423954940464_1_alg».proof.Proof.Payloads
import proofs.«100311_j16423954940464_1_alg».proof.Proof.Online

noncomputable section

open scoped BigOperators

namespace Cert.KernelIdeal.RowSteps

open Cert.KernelIdeal Cert.KernelIdeal.Gen Cert.KernelIdeal.Payloads Cert.Spec
open Idealize.ShloMosaic Idealize.ShloMosaic.ValueIdx

/-- The first column block: from the reset values −∞ and 0. -/
theorem row_first (x0 x1 : Vec Ideal S1024x768 .bf16) (r : Fin 1024) (x : ℕ → ℝ)
    (hS : ∀ c : Fin 1024, k0_pay5 (F := Ideal) x0 x1 (ix2 r c) = ((x c.val : ℝ) : EReal)) :
    RowState x 1024 (k0_pay8 (F := Ideal) x0 x1 (k0_pay2 (F := Ideal)) (ix2 r (0 : Fin 1)))
      (k0_pay7 (F := Ideal) x0 x1 (k0_pay2 (F := Ideal)) (k0_pay3 (F := Ideal)) (ix2 r (0 : Fin 1))) := by
  rw [pay8_apply, pay7_apply, pay6_apply, pay2_apply, pay3_apply]
  exact rowState_first x (by norm_num) (fun c => k0_pay5 (F := Ideal) x0 x1 (ix2 r c)) hS

/-- A later column block, starting at column a. -/
theorem row_next (x0 x1 : Vec Ideal S1024x768 .bf16) (xs0 xs1 : Vec Ideal S1024x1 .f32) (r : Fin 1024) (x : ℕ → ℝ) (a : ℕ)
    (hS : ∀ c : Fin 1024, k0_pay5 (F := Ideal) x0 x1 (ix2 r c) = ((x (a + c.val) : ℝ) : EReal))
    (h : RowState x a (xs0 (ix2 r (0 : Fin 1))) (xs1 (ix2 r (0 : Fin 1)))) :
    RowState x (a + 1024) (k0_pay8 (F := Ideal) x0 x1 xs0 (ix2 r (0 : Fin 1)))
      (k0_pay7 (F := Ideal) x0 x1 xs0 xs1 (ix2 r (0 : Fin 1))) := by
  rw [pay8_apply, pay7_apply, pay6_apply]
  exact rowState_next x (by norm_num) _ _ h (fun c => k0_pay5 (F := Ideal) x0 x1 (ix2 r c)) hS

/-- The row loss from the diagonal logit and a row state over all the columns. -/
theorem row_loss (v37 v38 v39 : Vec Ideal S1024x1 .f32) (r : Fin 1024) (x : ℕ → ℝ) {n : ℕ} (hn : 0 < n) (d : ℝ)
    (hd : v37 (ix2 r (0 : Fin 1)) = ((d : ℝ) : EReal))
    (h : RowState x n (v38 (ix2 r (0 : Fin 1))) (v39 (ix2 r (0 : Fin 1)))) :
    k0_pay1 (F := Ideal) v37 v38 v39 (ix1 r) = ((-(d - lse x n) : ℝ) : EReal) := by
  rw [pay1_apply, hd]
  exact rowState_loss x hn _ _ h d

end Cert.KernelIdeal.RowSteps

end
-- ==== Proof.HostPrefix.lean ====
/-
  What the kernel's two input windows hold.  Before the kernel runs, the program divides each row of each argument
  array by its floored norm (the change of float format is the identity on the extended reals), so the first window's
  array holds the unit rows of the first argument and the second window's those of the second.  Grid point t = 8 i + j
  stages row block i of the first (rows 1024 i …) and row block j of the second (rows 1024 j …), so the scaled block
  product at (r, c) is the cosine similarity of row 1024 i + r and row 1024 j + c over the temperature.
-/
import proofs.«100311_j16423954940464_1_alg».proof.Proof.Gen.KernelIdeal.Frame
import proofs.«100311_j16423954940464_1_alg».proof.Proof.Payloads
import Idealize.ShloMosaic.Lib.StableHlo.Run
import Idealize.ShloMosaic.Lib.IdealHost

set_option maxRecDepth 16384

noncomputable section

open scoped BigOperators

namespace Cert.KernelIdeal.HostPrefix

open Cert.KernelIdeal Cert.KernelIdeal.Gen Cert.Spec
open Idealize.ShloMosaic Idealize.ShloMosaic.TcCoe Idealize.ShloMosaic.ValueIdx Idealize.SL.Sem Idealize.ShloMosaic.StableHlo

/-- The grid has 64 points: 8 row blocks by 8 column blocks. -/
theorem N64 : cfg0.N = 64 := N_0

/-- The array row that local row r of the first window's block is, at grid point t. -/
def rowAt (t : Fin cfg0.N) (r : Fin 1024) : Fin 8192 :=
  ⟨1024 * (t.val / 8) + r.val, by have := t.isLt; have := N64; have := r.isLt; omega⟩

/-- The array row of the second argument (a column of the similarity matrix) that local row c of the second
    window's block is, at grid point t. -/
def colAt (t : Fin cfg0.N) (c : Fin 1024) : Fin 8192 :=
  ⟨1024 * (t.val % 8) + c.val, by have := c.isLt; omega⟩

variable (m : (ℓ : Loc nD τ sig) → Buf (Elt Ideal) ℓ)

/-! ## The host operations before the kernel: each row over its floored norm -/

/-- The host's unit rows of an argument array, as the program composes them: the array over the broadcast of the
    larger of the root of each row's sum of squares and the floor, in the narrower float format. -/
def unitRows {F : FTy → Type} [FloatOps F] (a : (⟨S8192x768, .f32⟩ : BufTy).Contents (Elt F)) : (⟨S8192x768, .bf16⟩ : BufTy).Contents (Elt F) :=
  truncf .bf16 (Host.divf a (broadcastInDim S8192x768 ![0, 1] bcast_S8192x1_S8192x768_0_1
    (maximumf (Host.sqrt (broadcastInDim S8192x1 ![0] bcast_S8192_S8192x1_0
        (Host.reduceAdd (mulf a a) (constant S_ .f32 0x00000000#32) reducesTo_S8192x768_S8192_d1 h_S_)))
      (broadcastInDim S8192x1 ![] bcast_S_S8192x1 (constant S_ .f32 0x322BCC77#32))))) bitsLt_bf16_f32

/-- The first window's array, when the kernel starts, is the unit rows of the first argument. -/
theorem V_v8_eq {F : FTy → Type} [FloatOps F] [Named F] (m : (ℓ : Loc nD τ sig) → Buf (Elt F) ℓ) (c : Dev nD) :
    V m c main_v8 = unitRows (m ((c : Thread nD τ).loc main_arg0)) := by
  dsimp only [V, V0]
  simp only [hostOps0, hostOps0_1, hostOps0_2, hostOps0_3, List.flatten_cons, List.flatten_nil, List.append_nil, List.cons_append, List.nil_append]
  after_results
  rfl

/-- The second window's array, when the kernel starts, is the unit rows of the second argument. -/
theorem V_v11_eq {F : FTy → Type} [FloatOps F] [Named F] (m : (ℓ : Loc nD τ sig) → Buf (Elt F) ℓ) (c : Dev nD) :
    V m c main_v11 = unitRows (m ((c : Thread nD τ).loc main_arg1)) := by
  dsimp only [V, V0]
  simp only [hostOps0, hostOps0_1, hostOps0_2, hostOps0_3, List.flatten_cons, List.flatten_nil, List.append_nil, List.cons_append, List.nil_append]
  after_results
  rfl

/-- The host's sum over a row of the squares, from the zero word: the sum of the squares of row R. -/
theorem rowSq_apply (a : FVec Ideal S8192x768 .f32) (h : S8192x768.ReducesTo [1] S8192) (hu : 0 < S_.numel) (R : Fin 8192) :
    Host.reduceAdd (mulf a a) (constant (F := Ideal) S_ .f32 0x00000000#32) h hu (ix1 R) = sumSq a R := by
  unfold Spec.sumSq
  have hr : S8192x768.Reduces [1] S8192 := by decide
  refine (hostReduceAdd_apply _ _ h hu (ix1 R)).trans ?_
  refine (Ideal.hostReduceAdd_single h hr (mulf a a) _ (ix1 R)).trans ?_
  exact congrArg (zero + ·) (Finset.sum_congr rfl fun k _ => congrArg (mulf a a) (Payloads.lift_row hr R k))

/-- The unit rows at (R, k): entry k of the unit vector along row R. -/
theorem unitRows_apply (a : (⟨S8192x768, .f32⟩ : BufTy).Contents (Elt Ideal)) (R : Fin 8192) (k : Fin 768) :
    unitRows (F := Ideal) a (ix2 R k) = unit a R k := by
  unfold unitRows Spec.unit Spec.norm
  show Ideal.div (a (ix2 R k)) (broadcastInDim (s := S8192x1) S8192x768 ![0, 1] bcast_S8192x1_S8192x768_0_1 _ (ix2 R k)) = _
  refine congrArg (Ideal.div (a (ix2 R k))) ?_
  refine (broadcastInDim_apply _ bcast_S8192x1_S8192x768_0_1 _ (ix2 R k) (ix2 R (0 : Fin 1)) (fun ax => match ax with
    | ⟨0, _⟩ => by show R.val = if (8192 : Nat) = 1 then 0 else R.val; rw [if_neg (by decide)]
    | ⟨1, _⟩ => by show 0 = if (1 : Nat) = 1 then 0 else k.val; rw [if_pos rfl])).trans ?_
  show max (Ideal.sqrt (broadcastInDim (s := S8192) S8192x1 ![0] bcast_S8192_S8192x1_0 _ (ix2 R (0 : Fin 1))))
    (broadcastInDim (s := S_) S8192x1 ![] bcast_S_S8192x1 _ (ix2 R (0 : Fin 1))) = _
  refine congrArg₂ max (congrArg Ideal.sqrt ?_) ?_
  · refine (broadcastInDim_apply _ bcast_S8192_S8192x1_0 _ (ix2 R (0 : Fin 1)) (ix1 R) (fun ax => match ax with
      | ⟨0, _⟩ => by show R.val = if (8192 : Nat) = 1 then 0 else R.val; rw [if_neg (by decide)])).trans ?_
    exact rowSq_apply a _ _ R
  · exact broadcastInDim_scalar_apply _ _ _

/-- The first window's array holds the unit rows of the first argument. -/
theorem arr0_apply (c : Dev nD) (R : Fin 8192) (k : Fin 768) :
    (V m c main_v8 : S8192x768.Idx → EReal) (ix2 R k) = unit (m ((c : Thread nD τ).loc main_arg0)) R k := by
  rw [V_v8_eq]
  exact unitRows_apply _ R k

/-- The second window's array holds the unit rows of the second argument. -/
theorem arr1_apply (c : Dev nD) (R : Fin 8192) (k : Fin 768) :
    (V m c main_v11 : S8192x768.Idx → EReal) (ix2 R k) = unit (m ((c : Thread nD τ).loc main_arg1)) R k := by
  rw [V_v11_eq]
  exact unitRows_apply _ R k

/-! ## The windows' blocks: which rows a grid point stages -/

/-- The first window's block index at point t = 8 i + j is (i, 0). -/
theorem index0 : ∀ t : Fin cfg0.N, win0_0.index t (0 : Fin 2) = t.val / 8 ∧ win0_0.index t (1 : Fin 2) = 0 :=
  (by decide +kernel : ∀ t : Fin grid0.N, _)

/-- The second window's block index at point t = 8 i + j is (j, 0). -/
theorem index1 : ∀ t : Fin cfg0.N, win0_1.index t (0 : Fin 2) = t.val % 8 ∧ win0_1.index t (1 : Fin 2) = 0 :=
  (by decide +kernel : ∀ t : Fin grid0.N, _)

/-- The first window's block at point t: rows 1024 (t / 8) … of the unit rows of the first argument. -/
theorem blk0_apply (c : Dev nD) (t : Fin cfg0.N) (r : Fin 1024) (k : Fin 768) :
    (iblk m c 0 t : Vec Ideal S1024x768 .bf16) (ix2 r k) = unit (m ((c : Thread nD τ).loc main_arg0)) (rowAt t r) k := by
  have hi := index0 t
  unfold iblk
  rw [View.read_apply]
  show (V m c main_v8 : S8192x768.Idx → EReal) _ = _
  refine (congrArg (V m c main_v8 : S8192x768.Idx → EReal) (?_ : _ = ix2 (rowAt t r) k)).trans (arr0_apply m c (rowAt t r) k)
  funext a
  apply Fin.ext
  match a with
  | ⟨0, _⟩ => show win0_0.index t 0 * 1024 + 1 * r.val = 1024 * (t.val / 8) + r.val; rw [hi.1]; omega
  | ⟨1, _⟩ => show win0_0.index t 1 * 768 + 1 * k.val = k.val; rw [hi.2]; omega

/-- The second window's block at point t: rows 1024 (t % 8) … of the unit rows of the second argument. -/
theorem blk1_apply (c : Dev nD) (t : Fin cfg0.N) (r : Fin 1024) (k : Fin 768) :
    (iblk m c 1 t : Vec Ideal S1024x768 .bf16) (ix2 r k) = unit (m ((c : Thread nD τ).loc main_arg1)) (colAt t r) k := by
  have hi := index1 t
  unfold iblk
  rw [View.read_apply]
  show (V m c main_v11 : S8192x768.Idx → EReal) _ = _
  refine (congrArg (V m c main_v11 : S8192x768.Idx → EReal) (?_ : _ = ix2 (colAt t r) k)).trans (arr1_apply m c (colAt t r) k)
  funext a
  apply Fin.ext
  match a with
  | ⟨0, _⟩ => show win0_1.index t 0 * 1024 + 1 * r.val = 1024 * (t.val % 8) + r.val; rw [hi.1]; omega
  | ⟨1, _⟩ => show win0_1.index t 1 * 768 + 1 * k.val = k.val; rw [hi.2]; omega

/-- The scaled block product at point t, entry (r, c): the cosine similarity of the two array rows, times the
    reciprocal of the temperature. -/
theorem blockLogit (c : Dev nD) (t : Fin cfg0.N) (r cc : Fin 1024) :
    k0_pay5 (F := Ideal) (iblk m c 0 t) (iblk m c 1 t) (ix2 r cc)
      = cosSim (m ((c : Thread nD τ).loc main_arg0)) (m ((c : Thread nD τ).loc main_arg1)) (rowAt t r) (colAt t cc)
          * ((invTemp : ℝ) : EReal) := by
  rw [Payloads.pay5_apply]
  unfold Spec.cosSim
  exact congrArg (· * ((invTemp : ℝ) : EReal)) (Finset.sum_congr rfl fun k _ => by rw [blk0_apply, blk1_apply])

end Cert.KernelIdeal.HostPrefix

end
-- ==== Proof.Tail.lean ====
/-
  After the kernel: the program sums the 8192 row losses the kernel left in its result array and divides by 8192.
-/
import proofs.«100311_j16423954940464_1_alg».proof.Proof.Gen.KernelIdeal.Frame
import proofs.«100311_j16423954940464_1_alg».proof.Proof.Spec
import Idealize.ShloMosaic.Lib.StableHlo.Run
import Idealize.ShloMosaic.Lib.IdealHost
import Idealize.ShloMosaic.Lib.ValueIdx
import Idealize.ShloMosaic.Lib.Pipeline.Value

set_option maxRecDepth 16384

noncomputable section

open scoped BigOperators

namespace Cert.KernelIdeal.Tail

open Cert.KernelIdeal Cert.KernelIdeal.Gen Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The host operations after the kernel, on the whole array -/

/-- The tail on an array of 8192 entries: their sum from the zero word, over the word of 8192. -/
def tailOf {F : FTy → Type} [FloatOps F] (A : (⟨S8192, .f32⟩ : BufTy).Contents (Elt F)) : (⟨S_, .f32⟩ : BufTy).Contents (Elt F) :=
  Host.divf (Host.reduceAdd A (constant S_ .f32 0x00000000#32) reducesTo_S8192_S_d0 h_S_) (constant S_ .f32 0x46000000#32)

/-- If the kernel's result array ends holding A, the program's result is the tail on A. -/
theorem tail_eq {F : FTy → Type} [FloatOps F] [Named F] (m : (ℓ : Loc nD τ sig) → Buf (Elt F) ℓ) (c : Dev nD)
    (A : Buf (Elt F) ((c : Thread nD τ).loc main_v12)) (hfin : (dats m 0 c).arrAt 2 cfg0.N = A) :
    Pipeline.afterTail₀ cfgs (dats m) 0 (V0 m) [hostOps1] c main_v14 = tailOf A := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v12) = A :=
    (Pipeline.withArrays_arr spec0 launch0.win.arr_inj c _ _ 2).trans hfin
  rw [e]
  rfl

/-! ## The tail read at the ideal values -/

/-- A sum over the indices of an array of 8192 entries is the sum over its 8192 coordinates. -/
theorem sum_idx1 (G : S8192.Idx → EReal) : ∑ j : S8192.Idx, G j = ∑ R : Fin 8192, G (ix1 R) :=
  Fintype.sum_equiv (⟨fun j => (j 0 : Fin 8192), fun R => ix1 R, fun j => (eq_ix1 j).symm, fun _ => rfl⟩ : S8192.Idx ≃ Fin 8192)
    _ _ (fun j => congrArg G (eq_ix1 j))

/-- The tail on G at the ideal values: (0 + ∑ R, G R) / 8192. -/
theorem tailOf_apply (G : S8192.Idx → EReal) (i : S_.Idx) :
    tailOf (F := Ideal) G i = Ideal.div (zero + ∑ R : Fin 8192, G (ix1 R)) count := by
  unfold tailOf
  refine (hostDivf_apply _ _ i).trans ?_
  refine congrArg (Ideal.div · count) ?_
  refine (hostReduceAdd_apply _ _ reducesTo_S8192_S_d0 h_S_ i).trans ?_
  refine (Ideal.hostReduceAdd_total reducesTo_S8192_S_d0 (fun b => b.elim0) G _ i).trans ?_
  exact congrArg (zero + ·) (sum_idx1 G)

/-- If the kernel's result array ends holding G, the program's result is (0 + ∑ R, G R) / 8192. -/
theorem tail_value (c : Dev nD) (G : S8192.Idx → EReal)
    (hfin : (dats m 0 c).arrAt 2 cfg0.N = (G : Buf (Elt Ideal) ((c : Thread nD τ).loc main_v12))) (i : S_.Idx) :
    (Pipeline.afterTail₀ cfgs (dats m) 0 (V0 m) [hostOps1] c main_v14 : S_.Idx → EReal) i
      = Ideal.div (zero + ∑ R : Fin 8192, G (ix1 R)) count := by
  rw [tail_eq m c G hfin]
  exact tailOf_apply G i

end Cert.KernelIdeal.Tail

end
-- ==== Proof.LossEq.lean ====
/-
  The two closed forms are one number.  With real cosine similarities z, the logit of (R, C) is z R C times the
  reciprocal of the temperature; the reference's log-softmax of row R at its diagonal, shifted by the row maximum, is
  logit R R − log ∑ exp (logit R ·), and the mean of the negated values is the negated mean.
-/
import proofs.«100311_j16423954940464_1_alg».proof.Proof.Online

noncomputable section

open scoped BigOperators

namespace Cert.Spec

open Idealize.ShloMosaic Idealize.ShloMosaic.ValueIdx

/-- The real logits from real cosine similarities. -/
def scaled (z : Fin 8192 → Fin 8192 → ℝ) (R C : Fin 8192) : ℝ := z R C * invTemp

/-- The row loss as a real number. -/
def rowLoss (z : Fin 8192 → Fin 8192 → ℝ) (R : Fin 8192) : ℝ := -(scaled z R R - lse (rowOf (scaled z) R) 8192)

/-- The logit of (R, C) is the scaled real similarity. -/
theorem logit_real (a b : Feat.Idx → EReal) (z : Fin 8192 → Fin 8192 → ℝ)
    (hz : ∀ R C, cosSim a b R C = ((z R C : ℝ) : EReal)) (R C : Fin 8192) :
    logit a b R C = ((scaled z R C : ℝ) : EReal) := by
  rw [logit, div_temp, hz, ← EReal.coe_mul, scaled]

/-- The reference's log-softmax at the diagonal is minus the row loss. -/
theorem logSoftmaxDiag_real (a b : Feat.Idx → EReal) (z : Fin 8192 → Fin 8192 → ℝ)
    (hz : ∀ R C, cosSim a b R C = ((z R C : ℝ) : EReal)) (R : Fin 8192) :
    logSoftmaxDiag a b R = ((-(rowLoss z R) : ℝ) : EReal) := by
  -- the row of logits is the row of real logits, column by column
  have hX : ∀ c : Fin 8192, (fun C => logit a b R C) c = ((rowOf (scaled z) R c.val : ℝ) : EReal) := fun c => by
    show logit a b R c = _
    rw [logit_real a b z hz R c, rowOf, dif_pos c.isLt]
  have key := ref_row (rowOf (scaled z) R) (by norm_num : 0 < 8192) (fun C => logit a b R C) hX (scaled z R R)
  rw [logSoftmaxDiag, rowMax, logit_real a b z hz R R]
  refine key.trans ?_
  rw [rowLoss, neg_neg]

/-- The mean of the row losses is the reference's loss. -/
theorem loss_eq (a b : Feat.Idx → EReal) (z : Fin 8192 → Fin 8192 → ℝ)
    (hz : ∀ R C, cosSim a b R C = ((z R C : ℝ) : EReal)) :
    Ideal.div (zero + ∑ R : Fin 8192, ((rowLoss z R : ℝ) : EReal)) count = refLoss a b := by
  have hs : ∀ R ∈ (Finset.univ : Finset (Fin 8192)), logSoftmaxDiag a b R = ((-(rowLoss z R) : ℝ) : EReal) :=
    fun R _ => logSoftmaxDiag_real a b z hz R
  rw [refLoss, Finset.sum_congr rfl hs, mean_neg (rowLoss z), neg_neg]

end Cert.Spec

end
-- ==== Proof.Finite.lean ====
/-
  Finiteness.  The precondition says every entry of the two argument arrays is below +∞ in absolute value, so every
  entry is a real number.  Then so is every entry of a unit row (a real divided by a norm that is at least the
  positive floor), every cosine similarity (a finite sum of products of reals) and every logit.
-/
import proofs.«100311_j16423954940464_1_alg».proof.Pre_finite_inputs
import proofs.«100311_j16423954940464_1_alg».proof.Proof.Gen.Pre_finite_inputs
import proofs.«100311_j16423954940464_1_alg».proof.Proof.Online
import Idealize.ShloMosaic.Lib.ReduceAll
import Idealize.ShloMosaic.Lib.ValueIdx

noncomputable section

open scoped BigOperators

namespace Cert.Finite

open Cert.Spec
open Idealize.ShloMosaic Idealize.ShloMosaic.ValueIdx

/-- Every entry of the array is a real number. -/
def AllReal (a : Feat.Idx → EReal) : Prop := ∀ i, ∃ r : ℝ, a i = (r : EReal)

/-- The word 0x7F800000 is +∞. -/
theorem posInf_eq : Ideal.ofBits .f32 0x7F800000#32 = ⊤ := by
  simp [Ideal.ofBits, Ideal.ieee]

/-- An extended real whose absolute value max x (-x) compares below +∞ is a real: at +∞ and at −∞ the absolute
    value is +∞ itself. -/
theorem real_of_abs_lt (x : EReal) (h : Ideal.cmp .olt (max x (-x)) (Ideal.ofBits .f32 0x7F800000#32) = 1#1) :
    ∃ r : ℝ, x = (r : EReal) := by
  rw [posInf_eq] at h
  induction x using EReal.rec with
  | bot => simp [Ideal.cmp] at h
  | coe r => exact ⟨r, rfl⟩
  | top => simp [Ideal.cmp] at h

/-- The printed precondition, all ones, makes both arrays real. -/
theorem allReal_of_pre [Cert.Pre_finite_inputs.Facts] (a b : FVec Ideal Cert.Pre_finite_inputs.S8192x768 .f32)
    (h : Cert.Pre_finite_inputs.fn (F := Ideal) a b = fun _ => 1#1) : AllReal a ∧ AllReal b := by
  haveI : Subsingleton Cert.Pre_finite_inputs.S_.Idx := ⟨fun i j => funext fun d => d.elim0⟩
  -- the one entry of the result is the 'and' of the two reductions
  have e := congrFun h ValueIdx.ix0
  unfold Cert.Pre_finite_inputs.fn at e
  dsimp only [andi] at e
  rw [IntOp.andi_eq_one] at e
  obtain ⟨e1, e2⟩ := e
  -- a reduction by 'and' over every axis that is 1 had a 1 at every entry
  have h1 := fun i => Host.reduce_andi_all _ _ _ _ _ e1 i
  have h2 := fun i => Host.reduce_andi_all _ _ _ _ _ e2 i
  dsimp only [cmpf, Host.absf, broadcastInDim, constant] at h1 h2
  exact ⟨fun i => real_of_abs_lt (a i) (h1 i), fun i => real_of_abs_lt (b i) (h2 i)⟩

/-- The word 0x322BCC77 has exponent field 100 and significand 2^23 + 2870391 = 11258999: it is 11258999 / 2^50. -/
theorem eps_eq : eps = ((11258999 / 1125899906842624 : ℝ) : EReal) := by
  simp [eps, Ideal.ofBits, Ideal.ieee, -EReal.coe_mul]
  norm_num

/-- The sum of the squares of a real row is a nonnegative real. -/
theorem sumSq_real (a : Feat.Idx → EReal) (ha : AllReal a) (R : Fin 8192) : ∃ s : ℝ, 0 ≤ s ∧ sumSq a R = (s : EReal) := by
  choose f hf using ha
  refine ⟨∑ k : Fin 768, f (ix2 R k) * f (ix2 R k), Finset.sum_nonneg fun k _ => mul_self_nonneg _, ?_⟩
  rw [sumSq, Online.zero_eq, zero_add, ← coe_sum]
  refine Finset.sum_congr rfl fun k _ => ?_
  rw [hf, EReal.coe_mul]

/-- The floored norm of a real row is a positive real. -/
theorem norm_real (a : Feat.Idx → EReal) (ha : AllReal a) (R : Fin 8192) : ∃ r : ℝ, 0 < r ∧ norm a R = (r : EReal) := by
  obtain ⟨s, hs, hsq⟩ := sumSq_real a ha R
  refine ⟨max (Real.sqrt s) (11258999 / 1125899906842624), lt_max_of_lt_right (by norm_num), ?_⟩
  rw [Cert.Spec.norm, hsq, Ideal.sqrt_coe, if_neg (not_lt.2 hs), eps_eq, Online.coe_max']

/-- A unit row of a real array is real. -/
theorem unit_real (a : Feat.Idx → EReal) (ha : AllReal a) (R : Fin 8192) (k : Fin 768) : ∃ r : ℝ, unit a R k = (r : EReal) := by
  obtain ⟨r, hr, hn⟩ := norm_real a ha R
  obtain ⟨x, hx⟩ := ha (ix2 R k)
  exact ⟨x * (1 / r), by rw [Cert.Spec.unit, hn, hx, Ideal.div_coe hr.ne', EReal.coe_mul]⟩

/-- The cosine similarities of two real arrays are reals. -/
theorem cosSim_real (a b : Feat.Idx → EReal) (ha : AllReal a) (hb : AllReal b) :
    ∃ z : Fin 8192 → Fin 8192 → ℝ, ∀ R C, cosSim a b R C = ((z R C : ℝ) : EReal) := by
  choose u hu using fun R k => unit_real a ha R k
  choose v hv using fun C k => unit_real b hb C k
  refine ⟨fun R C => ∑ k : Fin 768, u R k * v C k, fun R C => ?_⟩
  rw [cosSim, ← coe_sum]
  refine Finset.sum_congr rfl fun k _ => ?_
  rw [hu, hv, EReal.coe_mul]

end Cert.Finite

end
-- ==== Proof.KernelValue.lean ====
/-
  The kernel's value.  Grid point t = 8 i + j handles row block i (array rows 1024 i …) against column block j.
  Through the six control cases of the body, the three carried scratch arrays hold after point t, for every local
  row r: a row state (a real shift and the sum of exp (logit − shift)) over the first 1024 (j + 1) columns of array
  row 1024 i + r, and, from the diagonal block on, the diagonal logit.  At the last column block the output block
  therefore holds the row loss −(logit R R − log ∑ exp (logit R ·)), which is written back as block i of the result
  array; the blocks of the eight writing-back points tile the array.  The program then takes the mean, which is the
  reference's loss.
-/
import proofs.«100311_j16423954940464_1_alg».proof.Proof.Pieces
import proofs.«100311_j16423954940464_1_alg».proof.Proof.RowSteps
import proofs.«100311_j16423954940464_1_alg».proof.Proof.HostPrefix
import proofs.«100311_j16423954940464_1_alg».proof.Proof.Tail
import proofs.«100311_j16423954940464_1_alg».proof.Proof.LossEq
import proofs.«100311_j16423954940464_1_alg».proof.Proof.Finite
import Idealize.ShloMosaic.Lib.Pipeline.Value

set_option maxRecDepth 16384

noncomputable section

open scoped BigOperators

namespace Cert.KernelIdeal.KValue

open Cert.KernelIdeal Cert.KernelIdeal.Gen Cert.KernelIdeal.Pieces Cert.KernelIdeal.Payloads Cert.KernelIdeal.RowSteps
open Cert.KernelIdeal.HostPrefix Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- What the three carried scratch arrays and the output block hold after grid point n. -/
abbrev sc0 (n : ℕ) (h : n < cfg0.N) : Vec Ideal S1024x1 .f32 := (outsAt0 m c n h).2.1
abbrev sc1 (n : ℕ) (h : n < cfg0.N) : Vec Ideal S1024x1 .f32 := (outsAt0 m c n h).2.2.1
abbrev sc2 (n : ℕ) (h : n < cfg0.N) : Vec Ideal S1024x1 .f32 := (outsAt0 m c n h).2.2.2
abbrev ob (n : ℕ) (h : n < cfg0.N) : Vec Ideal S1024 .f32 := (outsAt0 m c n h).1

/-! ## The six control cases, one grid point at a time

The cases are decided by the point's number n = 8 i + j: n % 8 = 0 is the first column block (the scratch is reset
first), n % 9 = 0 the diagonal block (i = j: the diagonal term is stored), n % 8 = 7 the last column block (the row
loss is stored into the output block).  Each lemma says what one of the four arrays holds after the point, as the
body's arithmetic of the point's two input blocks and of what the point before left. -/

theorem sc0_A (h : 0 < cfg0.N) (h0 : 0 % 8 = 0) (h1 : 0 % 9 = 0) (h2 : ¬0 % 8 = 7) :
    sc0 m c 0 h = k0_pay8 (iblk m c 0 (⟨0, h⟩ : Fin cfg0.N)) (iblk m c 1 (⟨0, h⟩ : Fin cfg0.N)) (k0_pay2 (F := Ideal)) := by
  show (outsAt0 m c 0 h).2.1 = _
  rw [outsAt0_A m c (⟨0, h⟩ : Fin cfg0.N) h0 h1 h2]
  dsimp only
  exact sout0_A_0_eq c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) scM0_0 (Memref.isWhole_whole _) scM0_1 (Memref.isWhole_whole _) scM0_2 (Memref.isWhole_whole _) ((hcond0_0 (⟨0, h⟩ : Fin cfg0.N)).mpr h0) ((hcond0_1 (⟨0, h⟩ : Fin cfg0.N)).mpr h1) (fun hh => h2 ((hcond0_2 (⟨0, h⟩ : Fin cfg0.N)).mp hh)) (iblk m c 0 (⟨0, h⟩ : Fin cfg0.N)) (iblk m c 1 (⟨0, h⟩ : Fin cfg0.N))

theorem sc1_A (h : 0 < cfg0.N) (h0 : 0 % 8 = 0) (h1 : 0 % 9 = 0) (h2 : ¬0 % 8 = 7) :
    sc1 m c 0 h = k0_pay7 (iblk m c 0 (⟨0, h⟩ : Fin cfg0.N)) (iblk m c 1 (⟨0, h⟩ : Fin cfg0.N)) (k0_pay2 (F := Ideal)) (k0_pay3 (F := Ideal)) := by
  show (outsAt0 m c 0 h).2.2.1 = _
  rw [outsAt0_A m c (⟨0, h⟩ : Fin cfg0.N) h0 h1 h2]
  dsimp only
  exact sout0_A_1_eq c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) scM0_0 (Memref.isWhole_whole _) scM0_1 (Memref.isWhole_whole _) scM0_2 (Memref.isWhole_whole _) ((hcond0_0 (⟨0, h⟩ : Fin cfg0.N)).mpr h0) ((hcond0_1 (⟨0, h⟩ : Fin cfg0.N)).mpr h1) (fun hh => h2 ((hcond0_2 (⟨0, h⟩ : Fin cfg0.N)).mp hh)) (iblk m c 0 (⟨0, h⟩ : Fin cfg0.N)) (iblk m c 1 (⟨0, h⟩ : Fin cfg0.N))

theorem sc2_A (h : 0 < cfg0.N) (h0 : 0 % 8 = 0) (h1 : 0 % 9 = 0) (h2 : ¬0 % 8 = 7) :
    sc2 m c 0 h = k0_pay9 (iblk m c 0 (⟨0, h⟩ : Fin cfg0.N)) (iblk m c 1 (⟨0, h⟩ : Fin cfg0.N)) := by
  show (outsAt0 m c 0 h).2.2.2 = _
  rw [outsAt0_A m c (⟨0, h⟩ : Fin cfg0.N) h0 h1 h2]
  dsimp only
  exact sout0_A_2_eq c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) scM0_0 (Memref.isWhole_whole _) scM0_1 (Memref.isWhole_whole _) scM0_2 (Memref.isWhole_whole _) ((hcond0_0 (⟨0, h⟩ : Fin cfg0.N)).mpr h0) ((hcond0_1 (⟨0, h⟩ : Fin cfg0.N)).mpr h1) (fun hh => h2 ((hcond0_2 (⟨0, h⟩ : Fin cfg0.N)).mp hh)) (iblk m c 0 (⟨0, h⟩ : Fin cfg0.N)) (iblk m c 1 (⟨0, h⟩ : Fin cfg0.N))

theorem sc0_D (n : ℕ) (h : n + 1 < cfg0.N) (h0 : (n + 1) % 8 = 0) (h1 : ¬(n + 1) % 9 = 0) (h2 : ¬(n + 1) % 8 = 7) :
    sc0 m c (n + 1) h = k0_pay8 (iblk m c 0 (⟨n + 1, h⟩ : Fin cfg0.N)) (iblk m c 1 (⟨n + 1, h⟩ : Fin cfg0.N)) (k0_pay2 (F := Ideal)) := by
  show (outsAt0 m c (n + 1) h).2.1 = _
  rw [outsAt0_D m c (⟨n + 1, h⟩ : Fin cfg0.N) h0 h1 h2]
  dsimp only
  exact sout0_D_0_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) ((hcond0_0 (⟨n + 1, h⟩ : Fin cfg0.N)).mpr h0) (fun hh => h1 ((hcond0_1 (⟨n + 1, h⟩ : Fin cfg0.N)).mp hh)) (fun hh => h2 ((hcond0_2 (⟨n + 1, h⟩ : Fin cfg0.N)).mp hh)) (iblk m c 0 (⟨n + 1, h⟩ : Fin cfg0.N)) (iblk m c 1 (⟨n + 1, h⟩ : Fin cfg0.N))

theorem sc1_D (n : ℕ) (h : n + 1 < cfg0.N) (h0 : (n + 1) % 8 = 0) (h1 : ¬(n + 1) % 9 = 0) (h2 : ¬(n + 1) % 8 = 7) :
    sc1 m c (n + 1) h = k0_pay7 (iblk m c 0 (⟨n + 1, h⟩ : Fin cfg0.N)) (iblk m c 1 (⟨n + 1, h⟩ : Fin cfg0.N)) (k0_pay2 (F := Ideal)) (k0_pay3 (F := Ideal)) := by
  show (outsAt0 m c (n + 1) h).2.2.1 = _
  rw [outsAt0_D m c (⟨n + 1, h⟩ : Fin cfg0.N) h0 h1 h2]
  dsimp only
  exact sout0_D_1_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) ((hcond0_0 (⟨n + 1, h⟩ : Fin cfg0.N)).mpr h0) (fun hh => h1 ((hcond0_1 (⟨n + 1, h⟩ : Fin cfg0.N)).mp hh)) (fun hh => h2 ((hcond0_2 (⟨n + 1, h⟩ : Fin cfg0.N)).mp hh)) (iblk m c 0 (⟨n + 1, h⟩ : Fin cfg0.N)) (iblk m c 1 (⟨n + 1, h⟩ : Fin cfg0.N))

theorem sc0_B (n : ℕ) (h : n + 1 < cfg0.N) (h0 : ¬(n + 1) % 8 = 0) (h1 : ¬(n + 1) % 9 = 0) (h2 : ¬(n + 1) % 8 = 7) :
    sc0 m c (n + 1) h = k0_pay8 (iblk m c 0 (⟨n + 1, h⟩ : Fin cfg0.N)) (iblk m c 1 (⟨n + 1, h⟩ : Fin cfg0.N)) (sc0 m c n (Nat.lt_of_succ_lt h)) := by
  show (outsAt0 m c (n + 1) h).2.1 = _
  rw [outsAt0_B m c (⟨n + 1, h⟩ : Fin cfg0.N) h0 h1 h2]
  dsimp only
  exact sout0_B_0_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) (fun hh => h2 ((hcond0_2 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

theorem sc1_B (n : ℕ) (h : n + 1 < cfg0.N) (h0 : ¬(n + 1) % 8 = 0) (h1 : ¬(n + 1) % 9 = 0) (h2 : ¬(n + 1) % 8 = 7) :
    sc1 m c (n + 1) h = k0_pay7 (iblk m c 0 (⟨n + 1, h⟩ : Fin cfg0.N)) (iblk m c 1 (⟨n + 1, h⟩ : Fin cfg0.N)) (sc0 m c n (Nat.lt_of_succ_lt h)) (sc1 m c n (Nat.lt_of_succ_lt h)) := by
  show (outsAt0 m c (n + 1) h).2.2.1 = _
  rw [outsAt0_B m c (⟨n + 1, h⟩ : Fin cfg0.N) h0 h1 h2]
  dsimp only
  exact sout0_B_1_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) (fun hh => h2 ((hcond0_2 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

theorem sc0_C (n : ℕ) (h : n + 1 < cfg0.N) (h0 : ¬(n + 1) % 8 = 0) (h1 : ¬(n + 1) % 9 = 0) (h2 : (n + 1) % 8 = 7) :
    sc0 m c (n + 1) h = k0_pay8 (iblk m c 0 (⟨n + 1, h⟩ : Fin cfg0.N)) (iblk m c 1 (⟨n + 1, h⟩ : Fin cfg0.N)) (sc0 m c n (Nat.lt_of_succ_lt h)) := by
  show (outsAt0 m c (n + 1) h).2.1 = _
  rw [outsAt0_C m c (⟨n + 1, h⟩ : Fin cfg0.N) h0 h1 h2]
  dsimp only
  exact sout0_C_0_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) ((hcond0_2 (⟨n + 1, h⟩ : Fin cfg0.N)).mpr h2) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

theorem sc1_C (n : ℕ) (h : n + 1 < cfg0.N) (h0 : ¬(n + 1) % 8 = 0) (h1 : ¬(n + 1) % 9 = 0) (h2 : (n + 1) % 8 = 7) :
    sc1 m c (n + 1) h = k0_pay7 (iblk m c 0 (⟨n + 1, h⟩ : Fin cfg0.N)) (iblk m c 1 (⟨n + 1, h⟩ : Fin cfg0.N)) (sc0 m c n (Nat.lt_of_succ_lt h)) (sc1 m c n (Nat.lt_of_succ_lt h)) := by
  show (outsAt0 m c (n + 1) h).2.2.1 = _
  rw [outsAt0_C m c (⟨n + 1, h⟩ : Fin cfg0.N) h0 h1 h2]
  dsimp only
  exact sout0_C_1_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) ((hcond0_2 (⟨n + 1, h⟩ : Fin cfg0.N)).mpr h2) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

theorem sc0_E (n : ℕ) (h : n + 1 < cfg0.N) (h0 : ¬(n + 1) % 8 = 0) (h1 : (n + 1) % 9 = 0) (h2 : ¬(n + 1) % 8 = 7) :
    sc0 m c (n + 1) h = k0_pay8 (iblk m c 0 (⟨n + 1, h⟩ : Fin cfg0.N)) (iblk m c 1 (⟨n + 1, h⟩ : Fin cfg0.N)) (sc0 m c n (Nat.lt_of_succ_lt h)) := by
  show (outsAt0 m c (n + 1) h).2.1 = _
  rw [outsAt0_E m c (⟨n + 1, h⟩ : Fin cfg0.N) h0 h1 h2]
  dsimp only
  exact sout0_E_0_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) (fun hh => h2 ((hcond0_2 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1

theorem sc1_E (n : ℕ) (h : n + 1 < cfg0.N) (h0 : ¬(n + 1) % 8 = 0) (h1 : (n + 1) % 9 = 0) (h2 : ¬(n + 1) % 8 = 7) :
    sc1 m c (n + 1) h = k0_pay7 (iblk m c 0 (⟨n + 1, h⟩ : Fin cfg0.N)) (iblk m c 1 (⟨n + 1, h⟩ : Fin cfg0.N)) (sc0 m c n (Nat.lt_of_succ_lt h)) (sc1 m c n (Nat.lt_of_succ_lt h)) := by
  show (outsAt0 m c (n + 1) h).2.2.1 = _
  rw [outsAt0_E m c (⟨n + 1, h⟩ : Fin cfg0.N) h0 h1 h2]
  dsimp only
  exact sout0_E_1_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) (fun hh => h2 ((hcond0_2 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1

theorem sc0_F (n : ℕ) (h : n + 1 < cfg0.N) (h0 : ¬(n + 1) % 8 = 0) (h1 : (n + 1) % 9 = 0) (h2 : (n + 1) % 8 = 7) :
    sc0 m c (n + 1) h = k0_pay8 (iblk m c 0 (⟨n + 1, h⟩ : Fin cfg0.N)) (iblk m c 1 (⟨n + 1, h⟩ : Fin cfg0.N)) (sc0 m c n (Nat.lt_of_succ_lt h)) := by
  show (outsAt0 m c (n + 1) h).2.1 = _
  rw [outsAt0_F m c (⟨n + 1, h⟩ : Fin cfg0.N) h0 h1 h2]
  dsimp only
  exact sout0_F_0_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) ((hcond0_2 (⟨n + 1, h⟩ : Fin cfg0.N)).mpr h2) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1

theorem sc1_F (n : ℕ) (h : n + 1 < cfg0.N) (h0 : ¬(n + 1) % 8 = 0) (h1 : (n + 1) % 9 = 0) (h2 : (n + 1) % 8 = 7) :
    sc1 m c (n + 1) h = k0_pay7 (iblk m c 0 (⟨n + 1, h⟩ : Fin cfg0.N)) (iblk m c 1 (⟨n + 1, h⟩ : Fin cfg0.N)) (sc0 m c n (Nat.lt_of_succ_lt h)) (sc1 m c n (Nat.lt_of_succ_lt h)) := by
  show (outsAt0 m c (n + 1) h).2.2.1 = _
  rw [outsAt0_F m c (⟨n + 1, h⟩ : Fin cfg0.N) h0 h1 h2]
  dsimp only
  exact sout0_F_1_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) ((hcond0_2 (⟨n + 1, h⟩ : Fin cfg0.N)).mpr h2) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1

theorem sc2_E (n : ℕ) (h : n + 1 < cfg0.N) (h0 : ¬(n + 1) % 8 = 0) (h1 : (n + 1) % 9 = 0) (h2 : ¬(n + 1) % 8 = 7) :
    sc2 m c (n + 1) h = k0_pay9 (iblk m c 0 (⟨n + 1, h⟩ : Fin cfg0.N)) (iblk m c 1 (⟨n + 1, h⟩ : Fin cfg0.N)) := by
  show (outsAt0 m c (n + 1) h).2.2.2 = _
  rw [outsAt0_E m c (⟨n + 1, h⟩ : Fin cfg0.N) h0 h1 h2]
  dsimp only
  exact sout0_E_2_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) (fun hh => h2 ((hcond0_2 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1

theorem sc2_F (n : ℕ) (h : n + 1 < cfg0.N) (h0 : ¬(n + 1) % 8 = 0) (h1 : (n + 1) % 9 = 0) (h2 : (n + 1) % 8 = 7) :
    sc2 m c (n + 1) h = k0_pay9 (iblk m c 0 (⟨n + 1, h⟩ : Fin cfg0.N)) (iblk m c 1 (⟨n + 1, h⟩ : Fin cfg0.N)) := by
  show (outsAt0 m c (n + 1) h).2.2.2 = _
  rw [outsAt0_F m c (⟨n + 1, h⟩ : Fin cfg0.N) h0 h1 h2]
  dsimp only
  exact sout0_F_2_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) ((hcond0_2 (⟨n + 1, h⟩ : Fin cfg0.N)).mpr h2) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1

theorem ob_C (n : ℕ) (h : n + 1 < cfg0.N) (h0 : ¬(n + 1) % 8 = 0) (h1 : ¬(n + 1) % 9 = 0) (h2 : (n + 1) % 8 = 7) :
    ob m c (n + 1) h = k0_pay1 (sc2 m c n (Nat.lt_of_succ_lt h)) (k0_pay8 (iblk m c 0 (⟨n + 1, h⟩ : Fin cfg0.N)) (iblk m c 1 (⟨n + 1, h⟩ : Fin cfg0.N)) (sc0 m c n (Nat.lt_of_succ_lt h))) (k0_pay7 (iblk m c 0 (⟨n + 1, h⟩ : Fin cfg0.N)) (iblk m c 1 (⟨n + 1, h⟩ : Fin cfg0.N)) (sc0 m c n (Nat.lt_of_succ_lt h)) (sc1 m c n (Nat.lt_of_succ_lt h))) := by
  show (outsAt0 m c (n + 1) h).1 = _
  rw [outsAt0_C m c (⟨n + 1, h⟩ : Fin cfg0.N) h0 h1 h2]
  dsimp only
  exact out0_C_2_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) ((hcond0_2 (⟨n + 1, h⟩ : Fin cfg0.N)).mpr h2) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

theorem ob_F (n : ℕ) (h : n + 1 < cfg0.N) (h0 : ¬(n + 1) % 8 = 0) (h1 : (n + 1) % 9 = 0) (h2 : (n + 1) % 8 = 7) :
    ob m c (n + 1) h = k0_pay1 (k0_pay9 (iblk m c 0 (⟨n + 1, h⟩ : Fin cfg0.N)) (iblk m c 1 (⟨n + 1, h⟩ : Fin cfg0.N))) (k0_pay8 (iblk m c 0 (⟨n + 1, h⟩ : Fin cfg0.N)) (iblk m c 1 (⟨n + 1, h⟩ : Fin cfg0.N)) (sc0 m c n (Nat.lt_of_succ_lt h))) (k0_pay7 (iblk m c 0 (⟨n + 1, h⟩ : Fin cfg0.N)) (iblk m c 1 (⟨n + 1, h⟩ : Fin cfg0.N)) (sc0 m c n (Nat.lt_of_succ_lt h)) (sc1 m c n (Nat.lt_of_succ_lt h))) := by
  show (outsAt0 m c (n + 1) h).1 = _
  rw [outsAt0_F m c (⟨n + 1, h⟩ : Fin cfg0.N) h0 h1 h2]
  dsimp only
  exact out0_F_2_eq c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) ((hcond0_2 (⟨n + 1, h⟩ : Fin cfg0.N)).mpr h2) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.1 (outsAt0 m c ((⟨n + 1, h⟩ : Fin cfg0.N).val - 1) (Nat.lt_of_le_of_lt (Nat.sub_le _ _) (⟨n + 1, h⟩ : Fin cfg0.N).isLt)).2.2.1

theorem sc2_B (n : ℕ) (h : n + 1 < cfg0.N) (h0 : ¬(n + 1) % 8 = 0) (h1 : ¬(n + 1) % 9 = 0) (h2 : ¬(n + 1) % 8 = 7) :
    sc2 m c (n + 1) h = sc2 m c n (Nat.lt_of_succ_lt h) := by
  show (outsAt0 m c (n + 1) h).2.2.2 = _
  rw [outsAt0_B m c (⟨n + 1, h⟩ : Fin cfg0.N) h0 h1 h2]
  rfl

theorem sc2_C (n : ℕ) (h : n + 1 < cfg0.N) (h0 : ¬(n + 1) % 8 = 0) (h1 : ¬(n + 1) % 9 = 0) (h2 : (n + 1) % 8 = 7) :
    sc2 m c (n + 1) h = sc2 m c n (Nat.lt_of_succ_lt h) := by
  show (outsAt0 m c (n + 1) h).2.2.2 = _
  rw [outsAt0_C m c (⟨n + 1, h⟩ : Fin cfg0.N) h0 h1 h2]
  rfl

/-! ## The invariant of the grid run -/

/-- The real scaled logits: at every grid point the scaled block product holds them. -/
def Logits (z : Fin 8192 → Fin 8192 → ℝ) : Prop :=
  ∀ (t : Fin cfg0.N) (r cc : Fin 1024),
    k0_pay5 (F := Ideal) (iblk m c 0 t) (iblk m c 1 t) (ix2 r cc) = ((z (rowAt t r) (colAt t cc) : ℝ) : EReal)

/-- Column 1024 (t % 8) + cc of a row of logits, as a sequence entry. -/
theorem rowOf_col (z : Fin 8192 → Fin 8192 → ℝ) (R : Fin 8192) (t : Fin cfg0.N) (cc : Fin 1024) :
    rowOf z R (1024 * (t.val % 8) + cc.val) = z R (colAt t cc) := by
  have := cc.isLt
  unfold rowOf colAt
  rw [dif_pos (by omega)]

/-- The columns of the block of point t, as entries of the row's sequence. -/
theorem block_cols (z : Fin 8192 → Fin 8192 → ℝ) (hz : Logits m c z) (t : Fin cfg0.N) (r cc : Fin 1024) :
    k0_pay5 (F := Ideal) (iblk m c 0 t) (iblk m c 1 t) (ix2 r cc)
      = ((rowOf z (rowAt t r) (1024 * (t.val % 8) + cc.val) : ℝ) : EReal) := by
  rw [hz t r cc, rowOf_col]

/-- Within a row block the array row does not change from one point to the next. -/
theorem rowAt_succ (n : ℕ) (h : n + 1 < cfg0.N) (hn : ¬(n + 1) % 8 = 0) (r : Fin 1024) :
    rowAt ⟨n + 1, h⟩ r = rowAt ⟨n, Nat.lt_of_succ_lt h⟩ r := by
  apply Fin.ext
  show 1024 * ((n + 1) / 8) + r.val = 1024 * (n / 8) + r.val
  omega

/-- On the diagonal block the column block is the row block. -/
theorem colAt_diag (t : Fin cfg0.N) (hd : t.val % 9 = 0) (r : Fin 1024) : colAt t r = rowAt t r := by
  have := t.isLt
  have := N64
  apply Fin.ext
  show 1024 * (t.val % 8) + r.val = 1024 * (t.val / 8) + r.val
  omega

/-- After grid point n = 8 i + j, for every local row r (array row R = 1024 i + r): the running maximum and sum are
    a row state over the first 1024 (j + 1) columns of row R; once the diagonal block has been passed (i ≤ j) the
    third scratch holds the diagonal logit; and at the last column block the output block holds the row loss. -/
def Inv (z : Fin 8192 → Fin 8192 → ℝ) (n : ℕ) (h : n < cfg0.N) : Prop :=
  ∀ r : Fin 1024,
    RowState (rowOf z (rowAt ⟨n, h⟩ r)) (1024 * (n % 8 + 1)) (sc0 m c n h (ix2 r (0 : Fin 1))) (sc1 m c n h (ix2 r (0 : Fin 1)))
    ∧ (n / 8 ≤ n % 8 → sc2 m c n h (ix2 r (0 : Fin 1)) = ((z (rowAt ⟨n, h⟩ r) (rowAt ⟨n, h⟩ r) : ℝ) : EReal))
    ∧ (n % 8 = 7 → ob m c n h (ix1 r)
        = ((-(z (rowAt ⟨n, h⟩ r) (rowAt ⟨n, h⟩ r) - lse (rowOf z (rowAt ⟨n, h⟩ r)) 8192) : ℝ) : EReal))

/-- The first column block of a row block: the state after it. -/
theorem state_first (z : Fin 8192 → Fin 8192 → ℝ) (hz : Logits m c z) (n : ℕ) (h : n < cfg0.N) (h0 : n % 8 = 0) (r : Fin 1024) :
    RowState (rowOf z (rowAt ⟨n, h⟩ r)) (1024 * (n % 8 + 1))
      (k0_pay8 (F := Ideal) (iblk m c 0 ⟨n, h⟩) (iblk m c 1 ⟨n, h⟩) (k0_pay2 (F := Ideal)) (ix2 r (0 : Fin 1)))
      (k0_pay7 (F := Ideal) (iblk m c 0 ⟨n, h⟩) (iblk m c 1 ⟨n, h⟩) (k0_pay2 (F := Ideal)) (k0_pay3 (F := Ideal)) (ix2 r (0 : Fin 1))) := by
  rw [h0]
  refine row_first _ _ r _ (fun cc => ?_)
  rw [block_cols m c z hz ⟨n, h⟩ r cc]
  show ((rowOf z (rowAt ⟨n, h⟩ r) (1024 * (n % 8) + cc.val) : ℝ) : EReal) = _
  rw [h0]
  simp

/-- A later column block: the state after it from the state before it. -/
theorem state_next (z : Fin 8192 → Fin 8192 → ℝ) (hz : Logits m c z) (n : ℕ) (h : n + 1 < cfg0.N) (h0 : ¬(n + 1) % 8 = 0)
    (ih : Inv m c z n (Nat.lt_of_succ_lt h)) (r : Fin 1024) :
    RowState (rowOf z (rowAt ⟨n + 1, h⟩ r)) (1024 * ((n + 1) % 8 + 1))
      (k0_pay8 (F := Ideal) (iblk m c 0 ⟨n + 1, h⟩) (iblk m c 1 ⟨n + 1, h⟩) (sc0 m c n (Nat.lt_of_succ_lt h)) (ix2 r (0 : Fin 1)))
      (k0_pay7 (F := Ideal) (iblk m c 0 ⟨n + 1, h⟩) (iblk m c 1 ⟨n + 1, h⟩) (sc0 m c n (Nat.lt_of_succ_lt h)) (sc1 m c n (Nat.lt_of_succ_lt h)) (ix2 r (0 : Fin 1))) := by
  have e1 : 1024 * (n % 8 + 1) = 1024 * ((n + 1) % 8) := by omega
  have e2 : 1024 * ((n + 1) % 8 + 1) = 1024 * ((n + 1) % 8) + 1024 := by omega
  have ih' := (ih r).1
  rw [← rowAt_succ n h h0 r, e1] at ih'
  rw [e2]
  exact row_next _ _ _ _ r _ _ (fun cc => block_cols m c z hz ⟨n + 1, h⟩ r cc) ih'

/-- On the diagonal block the diagonal term is the row's own logit. -/
theorem diag_here (z : Fin 8192 → Fin 8192 → ℝ) (hz : Logits m c z) (t : Fin cfg0.N) (hd : t.val % 9 = 0) (r : Fin 1024) :
    k0_pay9 (F := Ideal) (iblk m c 0 t) (iblk m c 1 t) (ix2 r (0 : Fin 1)) = ((z (rowAt t r) (rowAt t r) : ℝ) : EReal) := by
  rw [pay9_apply, hz t r r, colAt_diag t hd r]

/-- The invariant holds after every grid point, by induction on the point over the six control cases. -/
theorem inv_all (z : Fin 8192 → Fin 8192 → ℝ) (hz : Logits m c z) : ∀ (n : ℕ) (h : n < cfg0.N), Inv m c z n h
  | 0, h => fun r => by
    have h0 : (0 : ℕ) % 8 = 0 := rfl
    have h1 : (0 : ℕ) % 9 = 0 := rfl
    have h2 : ¬(0 : ℕ) % 8 = 7 := by decide
    refine ⟨?_, fun _ => ?_, fun h7 => absurd h7 h2⟩
    · rw [sc0_A m c h h0 h1 h2, sc1_A m c h h0 h1 h2]
      exact state_first m c z hz 0 h h0 r
    · rw [sc2_A m c h h0 h1 h2]
      exact diag_here m c z hz ⟨0, h⟩ h1 r
  | n + 1, h => fun r => by
    have hN : n + 1 < 64 := lt_of_lt_of_eq h N64
    have ih := inv_all z hz n (Nat.lt_of_succ_lt h)
    by_cases h0 : (n + 1) % 8 = 0
    · -- the first column block of a later row block
      have h1 : ¬(n + 1) % 9 = 0 := by omega
      have h2 : ¬(n + 1) % 8 = 7 := by omega
      refine ⟨?_, fun hle => absurd hle (by omega), fun h7 => absurd h7 h2⟩
      rw [sc0_D m c n h h0 h1 h2, sc1_D m c n h h0 h1 h2]
      exact state_first m c z hz (n + 1) h h0 r
    · by_cases h1 : (n + 1) % 9 = 0
      · by_cases h2 : (n + 1) % 8 = 7
        · -- the diagonal block, last column block
          have hst := state_next m c z hz n h h0 ih r
          have hdg := diag_here m c z hz ⟨n + 1, h⟩ h1 r
          refine ⟨?_, fun _ => ?_, fun _ => ?_⟩
          · rw [sc0_F m c n h h0 h1 h2, sc1_F m c n h h0 h1 h2]; exact hst
          · rw [sc2_F m c n h h0 h1 h2]; exact hdg
          · rw [ob_F m c n h h0 h1 h2]
            have e8 : 1024 * ((n + 1) % 8 + 1) = 8192 := by omega
            rw [e8] at hst
            exact row_loss _ _ _ r _ (by norm_num) _ hdg hst
        · -- the diagonal block, not the last
          refine ⟨?_, fun _ => ?_, fun h7 => absurd h7 h2⟩
          · rw [sc0_E m c n h h0 h1 h2, sc1_E m c n h h0 h1 h2]; exact state_next m c z hz n h h0 ih r
          · rw [sc2_E m c n h h0 h1 h2]; exact diag_here m c z hz ⟨n + 1, h⟩ h1 r
      · by_cases h2 : (n + 1) % 8 = 7
        · -- off the diagonal, last column block
          have hst := state_next m c z hz n h h0 ih r
          have hdg : sc2 m c n (Nat.lt_of_succ_lt h) (ix2 r (0 : Fin 1))
              = ((z (rowAt ⟨n + 1, h⟩ r) (rowAt ⟨n + 1, h⟩ r) : ℝ) : EReal) := by
            rw [rowAt_succ n h h0 r]; exact (ih r).2.1 (by omega)
          refine ⟨?_, fun _ => ?_, fun _ => ?_⟩
          · rw [sc0_C m c n h h0 h1 h2, sc1_C m c n h h0 h1 h2]; exact hst
          · rw [sc2_C m c n h h0 h1 h2]; exact hdg
          · rw [ob_C m c n h h0 h1 h2]
            have e8 : 1024 * ((n + 1) % 8 + 1) = 8192 := by omega
            rw [e8] at hst
            exact row_loss _ _ _ r _ (by norm_num) _ hdg hst
        · -- off the diagonal, not the last
          refine ⟨?_, fun hle => ?_, fun h7 => absurd h7 h2⟩
          · rw [sc0_B m c n h h0 h1 h2, sc1_B m c n h h0 h1 h2]; exact state_next m c z hz n h h0 ih r
          · rw [sc2_B m c n h h0 h1 h2, rowAt_succ n h h0 r]; exact (ih r).2.1 (by omega)

/-! ## The result array -/

variable (zc : Fin 8192 → Fin 8192 → ℝ)

/-- The result array the kernel leaves: row R holds the loss of row R. -/
def lossArr : Buf (Elt Ideal) ((c : Thread nD τ).loc main_v12) :=
  fun i => ((rowLoss zc ⟨(i 0).val, (i 0).isLt⟩ : ℝ) : EReal)

/-- The output window's block index at point t is the row block t / 8. -/
theorem outIndex : ∀ t : Fin cfg0.N, win0_2.index t (0 : Fin 1) = t.val / 8 :=
  (by decide +kernel : ∀ t : Fin grid0.N, win0_2.index t (0 : Fin 1) = t.val / 8)

/-- What a writing-back point (the last column block of a row block) writes back is its block of the loss array. -/
theorem flushed_eq (hz : Logits m c (scaled zc)) (t : Fin cfg0.N) (hf : (cfg0.win 2).flush t = true) :
    (dats m 0 c).flushed 2 t = ((cfg0.win 2).blk t).view.read (Elt Ideal) (lossArr c zc) := by
  have h7 : t.val % 8 = 7 := (flush0_2 t).mp hf
  show (cfg0.win 2).cut (grid0.coords t) ((dats m 0 c).after 2 t) = _
  rw [after0_2]
  funext y
  rw [View.read_apply]
  have hr := ((inv_all m c (scaled zc) hz t.val t.isLt) ⟨(y 0).val, (y 0).isLt⟩).2.2 h7
  have ey : y = ix1 ⟨(y 0).val, (y 0).isLt⟩ := by funext a; match a with | ⟨0, _⟩ => rfl
  show (outsAt0 m c t.val t.isLt).1 y = lossArr c zc (((cfg0.win 2).blk t).view.emb y)
  refine (congrArg (outsAt0 m c t.val t.isLt).1 ey).trans (hr.trans ?_)
  show ((rowLoss zc (rowAt t ⟨(y 0).val, (y 0).isLt⟩) : ℝ) : EReal) = _
  unfold lossArr
  congr 2
  apply Fin.ext
  show 1024 * (t.val / 8) + (y 0).val = win0_2.index t (0 : Fin 1) * 1024 + 1 * (y 0).val
  rw [outIndex t]; omega

/-- An index of the result array is in point t's block iff it is in the block's range. -/
theorem mem_blk (t : Fin cfg0.N) (i : S8192.Idx) :
    i ∈ ((cfg0.win 2).blk t).view.set ↔ ∀ a : Fin 1, win0_2.index t a * S1024.size a ≤ (i a).val ∧ (i a).val < win0_2.index t a * S1024.size a + S1024.size a := by
  show i ∈ ((View.whole main_v12).slice (win0_2.rect t)).set ↔ _
  rw [View.set_slice_whole, Rect.mem_set_unit]
  exact Iff.rfl

/-- The result array after the run. -/
theorem final (hz : Logits m c (scaled zc)) : (dats m 0 c).arrAt 2 cfg0.N = lossArr c zc :=
  (dats m 0 c).arrAt_eq_of_cover 2 (lossArr c zc) (flushed_eq m c zc hz) fun i => by
    have hi : (i 0).val < 8192 := (i 0).isLt
    have hN := N64
    refine ⟨⟨8 * ((i 0).val / 1024) + 7, by omega⟩, (flush0_2 _).mpr (by show (8 * ((i 0).val / 1024) + 7) % 8 = 7; omega), ?_⟩
    rw [mem_blk]
    intro a
    match a with
    | ⟨0, _⟩ =>
      show win0_2.index ⟨8 * ((i 0).val / 1024) + 7, _⟩ (0 : Fin 1) * 1024 ≤ (i 0).val ∧ (i 0).val < win0_2.index ⟨8 * ((i 0).val / 1024) + 7, _⟩ (0 : Fin 1) * 1024 + 1024
      rw [outIndex]
      show (8 * ((i 0).val / 1024) + 7) / 8 * 1024 ≤ (i 0).val ∧ (i 0).val < (8 * ((i 0).val / 1024) + 7) / 8 * 1024 + 1024
      omega

/-! ## The run, read -/

/-- The scaled block products hold the scaled real similarities. -/
theorem logits_of_real (z : Fin 8192 → Fin 8192 → ℝ)
    (hz : ∀ R C, cosSim (m ((c : Thread nD τ).loc main_arg0)) (m ((c : Thread nD τ).loc main_arg1)) R C = ((z R C : ℝ) : EReal)) :
    Logits m c (scaled z) := fun t r cc => by
  rw [blockLogit m c t r cc, hz, ← EReal.coe_mul]
  rfl

/-- For real argument arrays: every weakly fair execution of the program terminates with its result at the
    reference's loss of the two arguments, and the arguments unchanged. -/
theorem run_value (ρ : Dev nD → PrngReg)
    (hreal : ∀ c : Dev nD, Cert.Finite.AllReal (m ((c : Thread nD τ).loc main_arg0)) ∧ Cert.Finite.AllReal (m ((c : Thread nD τ).loc main_arg1))) :
    θ_run defs (onTc (τ := τ) (main (F := Ideal))) ⟨m, fun _ => 0, ρ⟩ fun r => ∀ c : Dev nD,
      r.2.mem ((c.tc : Thread nD τ).loc main_v14)
          = (fun _ => refLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨z, hz⟩ := Cert.Finite.cosSim_real _ _ (hreal c).1 (hreal c).2
    have hL := logits_of_real m c z hz
    refine ⟨?_, ?_, ?_⟩
    · refine ((h c).2 main_v14 (Pipeline.mem_restRefs_of main_v14 (by decide) (by decide))).trans (funext fun i => ?_)
      exact (Cert.KernelIdeal.Tail.tail_value m c (lossArr c z) (final m c z hL) i).trans (loss_eq _ _ z hz)
    · exact ((h c).2 main_arg0 (Pipeline.mem_restRefs_of main_arg0 (by decide) (by decide))).trans (W_main_arg0 m (dats m) c)
    · exact ((h c).2 main_arg1 (Pipeline.mem_restRefs_of main_arg1 (by decide) (by decide))).trans (W_main_arg1 m (dats m) c))
    (run_main m ρ)

end Cert.KernelIdeal.KValue

end
-- ==== Proof.RefValue.lean ====
/-
  The reference's result, read off its operations one at a time at the ideal values: it is `Spec.refLoss` of the
  two argument arrays — each row divided by its floored norm, the matrix of inner products divided by the
  temperature, per row the log-softmax at the diagonal column (the row index gathered along the row: the index
  array is the row number itself, always in range), summed, divided by the number of rows and negated.
-/
import proofs.«100311_j16423954940464_1_alg».proof.Proof.RefRead
import proofs.«100311_j16423954940464_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

noncomputable section

open scoped BigOperators

namespace Cert.RefValue

open Cert.ReferenceIdeal Cert.ReferenceIdeal.ReadP Cert.Spec
open Idealize.ShloMosaic Idealize.ShloMosaic.ValueIdx

/-- The row index read back through the two broadcasts and the sum's index function. -/
private theorem idx_row0 (R : Fin 8192) (k : Fin 768) (k' : Fin 768) :
    idx_main_call0_v1 (idx_main_call0_v2 (idx_main_v6 (ix2 R k))) k' = ix2 R k' :=
  funext fun a => Fin.ext (by match a with | ⟨0, _⟩ => rfl | ⟨1, _⟩ => rfl)

/-- The unit rows of the first argument, as the reference computes them. -/
theorem unit0_apply (a : (⟨S8192x768, .f32⟩ : BufTy).Contents (Elt Ideal)) (R : Fin 8192) (k : Fin 768) :
    val_main_v7 (F := Ideal) a (ix2 R k) = unit a R k := by
  rw [val_main_v7_apply, val_main_v6_apply, val_main_v2_apply, val_main_v0_apply, val_main_call0_v2_apply,
    val_main_call0_v1_apply, val_main_v1_apply, val_main_cst_apply, val_main_call0_cst_apply]
  simp only [val_main_call0_v0_apply, idx_row0]
  rfl

private theorem idx_row1 (C : Fin 8192) (k : Fin 768) (k' : Fin 768) :
    idx_main_call1_v1 (idx_main_call1_v2 (idx_main_v8 (ix2 C k))) k' = ix2 C k' :=
  funext fun a => Fin.ext (by match a with | ⟨0, _⟩ => rfl | ⟨1, _⟩ => rfl)

/-- The unit rows of the second argument. -/
theorem unit1_apply (b : (⟨S8192x768, .f32⟩ : BufTy).Contents (Elt Ideal)) (C : Fin 8192) (k : Fin 768) :
    val_main_v9 (F := Ideal) b (ix2 C k) = unit b C k := by
  rw [val_main_v9_apply, val_main_v8_apply, val_main_v5_apply, val_main_v3_apply, val_main_call1_v2_apply,
    val_main_call1_v1_apply, val_main_v4_apply, val_main_cst_0_apply, val_main_call1_cst_apply]
  simp only [val_main_call1_v0_apply, idx_row1]
  rfl

private theorem lidx_logit (R C : Fin 8192) (k : Fin 768) : lidx_main_v11 (ix2 R C) k = ix2 R k :=
  funext fun a => Fin.ext (by match a with | ⟨0, _⟩ => rfl | ⟨1, _⟩ => rfl)

private theorem ridx_logit (R C : Fin 8192) (k : Fin 768) : idx_main_v10 (ridx_main_v11 (ix2 R C) k) = ix2 C k :=
  funext fun a => Fin.ext (by match a with | ⟨0, _⟩ => rfl | ⟨1, _⟩ => rfl)

/-- The logits. -/
theorem logit_apply (a b : (⟨S8192x768, .f32⟩ : BufTy).Contents (Elt Ideal)) (R C : Fin 8192) :
    val_main_v13 (F := Ideal) a b (ix2 R C) = logit a b R C := by
  rw [val_main_v13_apply, val_main_v11_apply, val_main_v12_apply, val_main_cst_1_apply]
  simp only [val_main_v10_apply, lidx_logit, ridx_logit, unit0_apply, unit1_apply]
  rfl

/-- A row index with column `k` put back on the dropped axis is (R, k). -/
private theorem lift_row (h : S8192x8192.Reduces [1] S8192) (R : Fin 8192) (k : Fin (S8192x8192.size 1)) :
    h.lift (ix1 R) k = ix2 R (⟨k.val, k.isLt⟩ : Fin 8192) := by
  funext c; apply Fin.ext
  fin_cases c <;> rfl

/-- The row maximum as the reference computes it: the reduction from −∞ joined with −∞. -/
theorem rowMax_apply (a b : (⟨S8192x768, .f32⟩ : BufTy).Contents (Elt Ideal)) (R : Fin 8192) :
    val_main_call2_v2 (F := Ideal) a b (ix1 R) = rowMax a b R := by
  rw [val_main_call2_v2_apply, val_main_call2_v1_apply, val_main_call2_cst_0_apply]
  unfold val_main_call2_v0
  have h : S8192x8192.Reduces [1] S8192 := by decide
  rw [Host.reduce_eq_fold_single FloatOps.maximumf _ _ Gen.reducesTo_S8192x8192_S8192_d1 h Gen.h_S_]
  have hf : (val_main_v13 (F := Ideal) a b ∘ h.lift (ix1 R)) = fun C : Fin 8192 => logit a b R C :=
    funext fun k => (congrArg (val_main_v13 (F := Ideal) a b) (lift_row h R k)).trans (logit_apply a b R _)
  rw [hf]
  rfl

private theorem idx_rowOf_v4 (R C : Fin 8192) : idx_main_call2_v3 (idx_main_call2_v4 (ix2 R C)) = ix1 R :=
  funext fun a => Fin.ext (by match a with | ⟨0, _⟩ => rfl)

/-- The shifted logits: each minus its row's largest. -/
theorem shifted_apply (a b : (⟨S8192x768, .f32⟩ : BufTy).Contents (Elt Ideal)) (R C : Fin 8192) :
    val_main_call2_v5 (F := Ideal) a b (ix2 R C) = logit a b R C - rowMax a b R := by
  rw [val_main_call2_v5_apply, val_main_call2_v4_apply, val_main_call2_v3_apply, idx_rowOf_v4, rowMax_apply,
    logit_apply]
  rfl

private theorem idx_sumExp (R C : Fin 8192) (k : Fin 8192) :
    idx_main_call2_v7 (idx_main_call2_v8 (idx_main_call2_v10 (ix2 R C))) k = ix2 R k :=
  funext fun a => Fin.ext (by match a with | ⟨0, _⟩ => rfl | ⟨1, _⟩ => rfl)

/-- The log-softmax of the logits at (R, C): shifted by the row's largest logit. -/
theorem logSoftmax_apply (a b : (⟨S8192x768, .f32⟩ : BufTy).Contents (Elt Ideal)) (R C : Fin 8192) :
    val_main_v15 (F := Ideal) a b (ix2 R C)
      = (logit a b R C - rowMax a b R) - Ideal.log (zero + ∑ C' : Fin 8192, Ideal.exp (logit a b R C' - rowMax a b R)) := by
  rw [val_main_v15_apply, val_main_call2_v10_apply, val_main_call2_v9_apply, val_main_call2_v8_apply,
    val_main_call2_v7_apply, val_main_call2_cst_1_apply, shifted_apply]
  simp only [val_main_call2_v6_apply, idx_sumExp, shifted_apply]
  rfl

/-! ### The index array of the gather: the row number as a 32-bit word -/

private theorem toNat_ofNat_row (r : Nat) (hr : r < 8192) : (BitVec.ofNat 32 r).toNat = r := by
  rw [BitVec.toNat_ofNat]; exact Nat.mod_eq_of_lt (by omega)

/-- A row number is not negative as a signed word. -/
private theorem row_not_neg (r : Nat) (hr : r < 8192) : IntOp.cmpi .slt (BitVec.ofNat 32 r) 0#32 = 0#1 := by
  refine eq_zero_of_ne_one fun h => ?_
  have := (StableHlo.Predicate.slt_iff_toNat (a := BitVec.ofNat 32 r) (b := 0#32)
    (by rw [toNat_ofNat_row r hr]; omega) (by decide)).1 h
  exact Nat.not_lt_zero _ this

/-- The normalized index (a negative one wrapped by the row length) is the row number itself. -/
private theorem normIdx_apply (j : S8192x1.Idx) :
    val_main_call3_v4 (F := Ideal) j = BitVec.ofNat 32 (j 0).val := by
  have hj : (j 0).val < 8192 := (j 0).isLt
  rw [val_main_call3_v4_apply, val_main_call3_v1_apply, val_main_v16_apply, val_main_v14_apply,
    val_main_call3_v0_apply, val_main_call3_c_apply]
  show Scalar.select (IntOp.cmpi .slt (BitVec.ofNat 32 (j 0).val) 0#32) _ _ = _
  rw [row_not_neg _ hj, select_zero]

/-- The index array handed to the gather holds the row number. -/
private theorem gatherIdx_apply (i : S8192x1x1.Idx) :
    val_main_call3_v5 (F := Ideal) i = BitVec.ofNat 32 (i 0).val := by
  rw [val_main_call3_v5_apply, normIdx_apply]
  refine congrArg (BitVec.ofNat 32) ?_
  have h1 : (i 1).val < 1 := (i 1).isLt
  have h2 : (i 2).val < 1 := (i 2).isLt
  show (((i 0).val * 1 + (i 1).val) * 1 + (i 2).val) / 1 = (i 0).val
  omega

/-- The row number lies between 0 and 8191 as a signed word: the in-range test holds at every index. -/
private theorem inRange_apply (i : S8192x1x1.Idx) : val_main_call3_v11 (F := Ideal) i = 1#1 := by
  have hi : (i 0).val < 8192 := (i 0).isLt
  have hn := toNat_ofNat_row _ hi
  rw [val_main_call3_v11_apply, val_main_call3_v7_apply, val_main_call3_v10_apply, gatherIdx_apply,
    val_main_call3_v6_apply, val_main_call3_c_2_apply, val_main_call3_v9_apply, val_main_call3_v8_apply,
    val_main_call3_c_1_apply]
  have hge : IntOp.cmpi .sge (BitVec.ofNat 32 (i 0).val) 0#32 = 1#1 :=
    (StableHlo.Predicate.sge_iff_toNat (by rw [hn]; omega) (by decide)).2 (Nat.zero_le _)
  have hle : IntOp.cmpi .sle (BitVec.ofNat 32 (i 0).val) 8191#32 = 1#1 :=
    (StableHlo.Predicate.sle_iff_toNat (by rw [hn]; omega) (by decide)).2 (by rw [hn]; show (i 0).val ≤ 8191; omega)
  rw [hge, hle]
  rfl

/-- A conjunction of true bits over a one-element axis, from true, is true. -/
private theorem fold_andi_true (init : BitVec 1) (f : Fin 1 → BitVec 1) (hi : init = 1#1) (hf : ∀ k, f k = 1#1) :
    Finset.fold IntOp.andi init f Finset.univ = 1#1 := by
  rw [Finset.univ_unique, Finset.fold_singleton, hf, hi]; rfl

/-- So the reduction of the test over its one-element axis is true. -/
private theorem inRangeAll_apply (j : S8192x1.Idx) : val_main_call3_v12 (F := Ideal) j = 1#1 := by
  unfold val_main_call3_v12
  have h : S8192x1x1.Reduces [2] S8192x1 := by decide
  rw [Host.reduce_eq_fold_single IntOp.andi _ _ Gen.reducesTo_S8192x1x1_S8192x1_d2 h Gen.h_S_]
  exact fold_andi_true _ _ rfl (fun k => inRange_apply _)

/-! ### The gather along the row -/

/-- The gather's dimension numbers: rows are batched (operand axis 0 with index axis 0), the column is the one
    collapsed axis the start index names. -/
private abbrev gd : GatherDims S8192x8192 S8192x1x1 S8192x1 := gather_S8192x8192_S8192x1x1_S8192x1_n_1_0_0_1_2_11

/-- The batched gather read at (R, u): the operand at row R and at the column the index array holds at (R, u, 0),
    read signed and clamped into the row. -/
private theorem gather_row_apply {α : Type} (x : S8192x8192.Idx → α) (idx : IVec S8192x1x1 32) (R : Fin 8192) (u : Fin 1) :
    Host.gather gd x idx (ix2 R u)
      = x (ix2 R (⟨min (idx (ix3 R u (0 : Fin 1))).toInt.toNat 8191, by omega⟩ : Fin 8192)) := by
  unfold Host.gather
  refine congrArg x (funext fun a => Fin.ext ?_)
  match a with
  | ⟨0, _⟩ =>
    show gd.start (ix2 R u) idx 0 + gd.batchCoord (ix2 R u) 0 + gd.offCoord (ix2 R u) 0 = R.val
    have hb : (0 : Fin S8192x8192.rank) ∈ gd.operandBatchingDims := List.mem_singleton.mpr rfl
    rw [gd.start_batching _ _ _ hb, gd.offCoord_eq_zero _ _ (fun h => ((gd.mem_sKept _).mp h).2 hb)]
    unfold GatherDims.batchCoord
    rw [dif_pos hb]
    simp only [Nat.zero_add, Nat.add_zero]
    rfl
  | ⟨1, _⟩ =>
    show gd.start (ix2 R u) idx 1 + gd.batchCoord (ix2 R u) 1 + gd.offCoord (ix2 R u) 1 = min (idx (ix3 R u (0 : Fin 1))).toInt.toNat 8191
    have hm : (1 : Fin S8192x8192.rank) ∈ gd.startIndexMap := List.mem_singleton.mpr rfl
    rw [gd.batchCoord_eq_zero _ _ (fun h => absurd (List.mem_singleton.mp h) (by decide)),
      gd.offCoord_eq_zero _ _ (fun h => ((gd.mem_sKept _).mp h).1 (List.mem_singleton.mpr rfl))]
    unfold GatherDims.start
    rw [dif_pos hm]
    have hsi : gd.siIdx (ix2 R u) ⟨List.idxOf (1 : Fin S8192x8192.rank) gd.startIndexMap, List.idxOf_lt_length_iff.2 hm⟩
        = ix3 R u (0 : Fin 1) :=
      funext fun b => Fin.ext (by match b with | ⟨0, _⟩ => rfl | ⟨1, _⟩ => rfl | ⟨2, _⟩ => rfl)
    rw [hsi]
    rfl

/-- The gathered diagonal: row R of the log-softmax at column R. -/
theorem diag_apply (a b : (⟨S8192x768, .f32⟩ : BufTy).Contents (Elt Ideal)) (R : Fin 8192) (u : Fin 1) :
    val_main_v17 (F := Ideal) a b (ix2 R u) = logSoftmaxDiag a b R := by
  have hR : R.val < 8192 := R.isLt
  have hcol : (⟨min (val_main_call3_v5 (F := Ideal) (ix3 R u (0 : Fin 1))).toInt.toNat 8191, by omega⟩ : Fin 8192) = R :=
    Fin.ext (by
      show min (val_main_call3_v5 (F := Ideal) (ix3 R u (0 : Fin 1))).toInt.toNat 8191 = R.val
      rw [gatherIdx_apply]
      show min (BitVec.ofNat 32 R.val).toInt.toNat 8191 = R.val
      rw [StableHlo.Predicate.toInt_ofNat_small _ (by omega)]
      omega)
  rw [val_main_v17_apply, inRangeAll_apply, select_one]
  unfold val_main_call3_v13
  rw [gather_row_apply, hcol, logSoftmax_apply]
  rfl

/-- The reference's result. -/
theorem ref_value (a b : (⟨S8192x768, .f32⟩ : BufTy).Contents (Elt Ideal)) (i : S_.Idx) :
    val_main_v20 (F := Ideal) a b i = refLoss a b := by
  rw [val_main_v20_apply, val_main_v19_apply, val_main_v18_apply, val_main_cst_2_apply, val_main_cst_3_apply,
    ValueIdx.sum_idx2]
  simp only [diag_apply, Fin.sum_univ_one]
  rfl

end Cert.RefValue

end
-- ==== Proof.lean ====
/-
  The claim: the kernel and its idealization run (terminate, nothing faulting, arguments unchanged), the reference
  runs, the idealization differs from the kernel only in reading the folded reciprocal of the temperature as the
  exact rational 2^27 / 9395241, and at the ideal values the kernel's result and the reference's are the same
  extended real: both are the mean over the 8192 rows of -(logit R R - log (∑ C, exp (logit R C))), the logits the
  cosine similarities of the unit rows over the temperature.  The kernel reaches it by an online softmax over eight
  column blocks per row block; for finite inputs every logit is a real number, and for reals the running
  (maximum, rescaled sum) pair determines the same log-sum-exp as the reference's one-pass form.
-/
import proofs.«100311_j16423954940464_1_alg».proof.Defs
import proofs.«100311_j16423954940464_1_alg».proof.Proof.Gen.Kernel
import proofs.«100311_j16423954940464_1_alg».proof.Proof.Gen.Kernel.Skeleton
import proofs.«100311_j16423954940464_1_alg».proof.Proof.Gen.Kernel.Launch
import proofs.«100311_j16423954940464_1_alg».proof.Proof.Gen.Kernel.Points
import proofs.«100311_j16423954940464_1_alg».proof.Proof.Gen.Kernel.Frame
import proofs.«100311_j16423954940464_1_alg».proof.Proof.Gen.KernelIdeal
import proofs.«100311_j16423954940464_1_alg».proof.Proof.Gen.KernelIdeal.Skeleton
import proofs.«100311_j16423954940464_1_alg».proof.Proof.Gen.KernelIdeal.Launch
import proofs.«100311_j16423954940464_1_alg».proof.Proof.Gen.KernelIdeal.Points
import proofs.«100311_j16423954940464_1_alg».proof.Proof.Gen.KernelIdeal.Frame
import proofs.«100311_j16423954940464_1_alg».proof.Proof.Gen.ReferenceIdeal
import proofs.«100311_j16423954940464_1_alg».proof.Proof.Gen.Pre_finite_inputs
import proofs.«100311_j16423954940464_1_alg».proof.Proof.KernelValue
import proofs.«100311_j16423954940464_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one rewrite of the idealization: the kernel's literal 14.2857141… is read as 2^27 / 9395241, the exact
    reciprocal of the f32 value of 0.07 that the reference divides by. -/
theorem preserves : Cert.preserves_Kernel_KernelIdeal :=
  IdealRules.named_const.statement Cert.KernelIdeal.κ "inv_temp" .f32 0x41649249#32 ((134217728 / 9395241 : ℝ) : EReal) rfl

/-- At the ideal values both programs end at the reference's loss of the (finite) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ c : Dev Cert.KernelIdeal.nD,
      Cert.Finite.AllReal (m ((c : Thread Cert.KernelIdeal.nD Cert.KernelIdeal.τ).loc Cert.KernelIdeal.main_arg0))
      ∧ Cert.Finite.AllReal (m ((c : Thread Cert.KernelIdeal.nD Cert.KernelIdeal.τ).loc Cert.KernelIdeal.main_arg1)) :=
    fun c => Cert.Finite.allReal_of_pre _ _ (hpre c)
  refine ⟨fun c _ => Cert.Spec.refLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run_value m ρ hreal, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v20_eq, (hagree c).1, (hagree c).2]
  exact funext fun i => Cert.RefValue.ref_value _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
